-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v25)) (v2 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_v27) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part2 {F : FTy → Type} [FloatOps F] (main_arg7 : FVec F S4096x16 .f32) (main_arg8 : FVec F S16x4096 .f32) (main_arg9 : FVec F S4096x16 .f32) (main_v33 : IVec S_ 1) : IVec S_ 1 :=
  let main_v34 : FVec F S4096x16 .f32 := Host.absf main_arg7
  let main_cst_12 : FVec F S_ .f32 := constant S_ .f32 0x7F800000#32
  let main_v35 : FVec F S4096x16 .f32 := broadcastInDim S4096x16 ![] bcast_S_S4096x16 main_cst_12
  let main_v36 : IVec S4096x16 1 := cmpf .olt main_v34 main_v35
  let main_c_13 : IVec S_ 1 := constantI S_ 1 1#1
  let main_v37 : IVec S_ 1 := (fun x v => Host.reduce IntOp.andi x v reducesTo_S4096x16_S_d0_1 h_S_) main_v36 main_c_13
  let main_v38 : IVec S_ 1 := andi main_v33 main_v37
  let main_v39 : FVec F S16x4096 .f32 := Host.absf main_arg8
  let main_cst_14 : FVec F S_ .f32 := constant S_ .f32 0x7F800000#32
  let main_v40 : FVec F S16x4096 .f32 := broadcastInDim S16x4096 ![] bcast_S_S16x4096 main_cst_14
  let main_v41 : IVec S16x4096 1 := cmpf .olt main_v39 main_v40
  let main_c_15 : IVec S_ 1 := constantI S_ 1 1#1
  let main_v42 : IVec S_ 1 := (fun x v => Host.reduce IntOp.andi x v reducesTo_S16x4096_S_d0_1 h_S_) main_v41 main_c_15
  let main_v43 : IVec S_ 1 := andi main_v38 main_v42
  let main_v44 : FVec F S4096x16 .f32 := Host.absf main_arg9
  let main_cst_16 : FVec F S_ .f32 := constant S_ .f32 0x7F800000#32
  let main_v45 : FVec F S4096x16 .f32 := broadcastInDim S4096x16 ![] bcast_S_S4096x16 main_cst_16
  let main_v46 : IVec S4096x16 1 := cmpf .olt main_v44 main_v45
  let main_c_17 : IVec S_ 1 := constantI S_ 1 1#1
  let main_v47 : IVec S_ 1 := (fun x v => Host.reduce IntOp.andi x v reducesTo_S4096x16_S_d0_1 h_S_) main_v46 main_c_17
  let main_v48 : IVec S_ 1 := andi main_v43 main_v47
  main_v48

def fn_part1 {F : FTy → Type} [FloatOps F] (main_arg4 : FVec F S16x4096 .f32) (main_arg5 : FVec F S4096x16 .f32) (main_arg6 : FVec F S16x4096 .f32) (main_arg7 : FVec F S4096x16 .f32) (main_arg8 : FVec F S16x4096 .f32) (main_arg9 : FVec F S4096x16 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  let main_v24 : FVec F S4096x16 .f32 := Host.absf main_arg5
  let main_cst_8 : FVec F S_ .f32 := constant S_ .f32 0x7F800000#32
  let main_v25 : FVec F S4096x16 .f32 := broadcastInDim S4096x16 ![] bcast_S_S4096x16 main_cst_8
  let main_v26 : IVec S4096x16 1 := cmpf .olt main_v24 main_v25
  let main_c_9 : IVec S_ 1 := constantI S_ 1 1#1
  let main_v27 : IVec S_ 1 := (fun x v => Host.reduce IntOp.andi x v reducesTo_S4096x16_S_d0_1 h_S_) main_v26 main_c_9
  let main_v28 : IVec S_ 1 := andi main_v23 main_v27
  let main_v29 : FVec F S16x4096 .f32 := Host.absf main_arg6
  let main_cst_10 : FVec F S_ .f32 := constant S_ .f32 0x7F800000#32
  let main_v30 : FVec F S16x4096 .f32 := broadcastInDim S16x4096 ![] bcast_S_S16x4096 main_cst_10
  let main_v31 : IVec S16x4096 1 := cmpf .olt main_v29 main_v30
  let main_c_11 : IVec S_ 1 := constantI S_ 1 1#1
  let main_v32 : IVec S_ 1 := (fun x v => Host.reduce IntOp.andi x v reducesTo_S16x4096_S_d0_1 h_S_) main_v31 main_c_11
  let main_v33 : IVec S_ 1 := andi main_v28 main_v32
  fn_part2 (F := F) main_arg7 main_arg8 main_arg9 main_v33

def fn {F : FTy → Type} [FloatOps F] (main_arg0 : FVec F S4x2048x4096 .f32) (main_arg1 : FVec F S4096x4096 .f32) (main_arg2 : FVec F S4096x4096 .f32) (main_arg3 : FVec F S4096x4096 .f32) (main_arg4 : FVec F S16x4096 .f32) (main_arg5 : FVec F S4096x16 .f32) (main_arg6 : FVec F S16x4096 .f32) (main_arg7 : FVec F S4096x16 .f32) (main_arg8 : FVec F S16x4096 .f32) (main_arg9 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_arg9 main_v13 main_v16
-- ==== Kernel.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S_ : Shape := ⟨0, ![]⟩
abbrev S4096x12288 : Shape := ⟨2, ![4096, 12288]⟩
abbrev S8192x4096 : Shape := ⟨2, ![8192, 4096]⟩
abbrev S8192x12288 : Shape := ⟨2, ![8192, 12288]⟩
abbrev S1024x1024 : Shape := ⟨2, ![1024, 1024]⟩

abbrev nBuf : Space → Nat
  | .hbm => 41
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S16x4096, .f32⟩
  | .hbm, ⟨5, _⟩ => ⟨S4096x16, .f32⟩
  | .hbm, ⟨6, _⟩ => ⟨S16x4096, .f32⟩
  | .hbm, ⟨7, _⟩ => ⟨S4096x16, .f32⟩
  | .hbm, ⟨8, _⟩ => ⟨S16x4096, .f32⟩
  | .hbm, ⟨9, _⟩ => ⟨S4096x16, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .bf16⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .bf16⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x4096, .bf16⟩
  | .hbm, ⟨31, _⟩ => ⟨S4096x12288, .bf16⟩
  | .hbm, ⟨32, _⟩ => ⟨S8192x4096, .f32⟩
  | .hbm, ⟨33, _⟩ => ⟨S8192x4096, .bf16⟩
  | .hbm, ⟨34, _⟩ => ⟨S8192x12288, .f32⟩
  | .hbm, ⟨35, _⟩ => ⟨S8192x4096, .f32⟩
  | .hbm, ⟨36, _⟩ => ⟨S4x2048x4096, .f32⟩
  | .hbm, ⟨37, _⟩ => ⟨S8192x4096, .f32⟩
  | .hbm, ⟨38, _⟩ => ⟨S4x2048x4096, .f32⟩
  | .hbm, ⟨39, _⟩ => ⟨S8192x4096, .f32⟩
  | .hbm, ⟨40, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 12, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  transposes_S4096x4096_S4096x4096_1_0 : S4096x4096.Transposes [1, 0] S4096x4096
  bcast_S_S4096x4096 : S_.BroadcastsInDim S4096x4096 (![] : Fin 0 → Fin S4096x4096.rank)
  bitsLt_bf16_f32 : FTy.bits .bf16 < FTy.bits .f32
  concatenates_S4096x4096_S4096x4096_S4096x4096_S4096x12288_d1 : Shape.Concatenates [S4096x4096, S4096x4096, S4096x4096] S4096x12288 1
  shapeCasts_S4x2048x4096_S8192x4096 : S4x2048x4096.ShapeCasts S8192x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S8192x12288_S8192x4096_0_0 : S8192x12288.Slices ![0, 0] S8192x4096
  shapeCasts_S8192x4096_S4x2048x4096 : S8192x4096.ShapeCasts S4x2048x4096
  slices_S8192x12288_S8192x4096_0_4096 : S8192x12288.Slices ![0, 4096] S8192x4096
  slices_S8192x12288_S8192x4096_0_8192 : S8192x12288.Slices ![0, 8192] S8192x4096
  dot_S16x4096_S4096x16_S4096x4096_0_1_1_0_n_n_wf : DotDims.WF S16x4096 S4096x16 S4096x4096 [0] [1] [1] [0] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x12288.size a
  hwx0_1 : ∀ i : grid0.Coords, EltTy.bits .bf16 = 32 ∨ (Rect.block (s := S4096x12288) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x12288.size a
  hwx0_2 : ∀ i : grid0.Coords, EltTy.bits .f32 = 32 ∨ (Rect.block (s := S8192x12288) S1024x1024.size (cc0_transform_2 i) (hinb0_2 i)).WholeWords (EltTy.packing .f32)

variable [Facts₀]

def dot_S16x4096_S4096x16_S4096x4096_0_1_1_0_n_n : DotDims S16x4096 S4096x16 S4096x4096 where
  lhsContracting := [0]
  rhsContracting := [1]
  lhsNonContracting := [1]
  rhsNonContracting := [0]
  lhsBatch := []
  rhsBatch := []
  wf := dot_S16x4096_S4096x16_S4096x4096_0_1_1_0_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v20) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S4x2048x16 : Shape := ⟨3, ![4, 2048, 16]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S16x4096, .f32⟩
  | .hbm, ⟨5, _⟩ => ⟨S4096x16, .f32⟩
  | .hbm, ⟨6, _⟩ => ⟨S16x4096, .f32⟩
  | .hbm, ⟨7, _⟩ => ⟨S4096x16, .f32⟩
  | .hbm, ⟨8, _⟩ => ⟨S16x4096, .f32⟩
  | .hbm, ⟨9, _⟩ => ⟨S4096x16, .f32⟩
  | .hbm, ⟨10, _⟩ => ⟨S4x2048x4096, .f32⟩
  | .hbm, ⟨11, _⟩ => ⟨S4x2048x16, .f32⟩
  | .hbm, ⟨12, _⟩ => ⟨S_, .f32⟩
  | .hbm, ⟨13, _⟩ => ⟨S4096x16, .f32⟩
  | .hbm, ⟨14, _⟩ => ⟨S4096x16, .f32⟩
  | .hbm, ⟨15, _⟩ => ⟨S4x2048x4096, .f32⟩
  | .hbm, ⟨16, _⟩ => ⟨S4x2048x4096, .f32⟩
  | .hbm, ⟨17, _⟩ => ⟨S4x2048x4096, .f32⟩
  | .hbm, ⟨18, _⟩ => ⟨S4x2048x16, .f32⟩
  | .hbm, ⟨19, _⟩ => ⟨S_, .f32⟩
  | .hbm, ⟨20, _⟩ => ⟨S4096x16, .f32⟩
  | .hbm, ⟨21, _⟩ => ⟨S4096x16, .f32⟩
  | .hbm, ⟨22, _⟩ => ⟨S4x2048x4096, .f32⟩
  | .hbm, ⟨23, _⟩ => ⟨S4x2048x4096, .f32⟩
  | .hbm, ⟨24, _⟩ => ⟨S4x2048x4096, .f32⟩
  | .hbm, ⟨25, _⟩ => ⟨S4x2048x16, .f32⟩
  | .hbm, ⟨26, _⟩ => ⟨S_, .f32⟩
  | .hbm, ⟨27, _⟩ => ⟨S4096x16, .f32⟩
  | .hbm, ⟨28, _⟩ => ⟨S4096x16, .f32⟩
  | .hbm, ⟨29, _⟩ => ⟨S4x2048x4096, .f32⟩
  | .hbm, ⟨30, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩

abbrev nD : Nat := 1
abbrev τ : Topo := Topo.v7x

variable {F : FTy → Type} [FloatOps F]

class Facts₀ : Prop where
  bcast_S_S4096x16 : S_.BroadcastsInDim S4096x16 (![] : Fin 0 → Fin S4096x16.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.KB.Kit.lean ====
/-
  The tiled matrix product's launch, seen from @main: what the host lines before the call leave in the
  buffers, the call's three windows and their blocks, the two branch conditions of the body decided over
  the grid (first step of the contraction axis; last step), and where the output window rests.
-/
import proofs.«130216_j26250840113720_1_alg».proof.Proof.Gen.Kernel.Launch
import proofs.«130216_j26250840113720_1_alg».proof.Proof.Gen.Kernel.Skeleton
import proofs.«130216_j26250840113720_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the call -/

/-- Core `c`'s buffers when the call is entered: the launch memory after the host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main is: the host lines before the call, the call, the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (show List.Forall _ [hostOps0] from hostOps0_sub)
    (show List.Forall _ [hostOps0] from hostOps0_fresh) main_chain

/-- The lines after the call touch unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write none of the call's three arrays (each writes its own result buffer only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro w; fin_cases w <;> simp only [StableHlo.unary_writes, StableHlo.reshape_writes, Finset.mem_singleton] <;> exact StableHlo.devRef_ne_of_ne (by decide)

/-! No host line before the call writes an argument of @main: the call finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! Nor does a host line after the call, and none is an array of the call. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The left operand's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The right operand's staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run of the call -/

/-- A run that ends with every array of the call at what the proof data computes and every other unscoped
    buffer as the later host lines leave it, read at @main's ten arguments: none is an array of the call and no
    host line writes one, so each ends as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c)⟩) h

/-! ## The body's two branch conditions -/

/-- "This is the first step along the contraction axis" (the accumulator is reset), from the grid coordinates. -/
abbrev cond0_0 (i : grid0.Coords) : Prop := (Scalar.cmpi .ne (Scalar.extui (Scalar.cmpi .eq (BitVec.ofNat 32 (i 2).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last step along the contraction axis" (the accumulator is stored out). -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows rest -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last contraction step nothing is stored into the output window, -/
theorem idleAt0_2 : ∀ t : Fin cfg0.N, ¬cond0_1 (grid0.coords t) → cfg0.idle 2 (grid0.coords t) = true := by decide +kernel
/-- and its block is not written back there. -/
theorem noFlush0_2 : ∀ t : Fin cfg0.N, ¬cond0_1 (grid0.coords t) → (cfg0.win 2).flush t = false := by decide +kernel
/-- At the last contraction step it is stored into. -/
theorem liveAt0_2 : ∀ t : Fin cfg0.N, cond0_1 (grid0.coords t) → cfg0.idle 2 (grid0.coords t) = false := by decide +kernel

/-! ## The staging memrefs and the accumulator -/

/-- One staging buffer of the output window, through which its contents are stated. -/
abbrev VO0_2 : View sig .tc .vmem S1024x1024 .f32 := (Memref.whole cc0_stg2_0 : Memref sig .tc .vmem S1024x1024 .f32).view
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S1024x1024 .f32 := Memref.whole cc0_scratch0
abbrev VS0_0 : View sig .tc .vmem S1024x1024 .f32 := scM0_0.view

/-- What the call is handed beside its windows: the accumulator at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Frm

end
-- ==== Proof.KB.RunA.lean ====
/-
  The body at a first contraction step (reset taken, store-out not taken): on whole staging memrefs, the two
  operand blocks at their contents, the output buffer handed back as found, the accumulator at anything, it runs
  to the end leaving the accumulator with its stores written. The pieces are what the symbolic run finds.
-/
import proofs.«130216_j26250840113720_1_alg».proof.Proof.KB.Kit

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Frm

end
-- ==== Proof.KB.RunB.lean ====
/-
  The body at a middle contraction step (neither branch taken): the accumulator at what the step before left.
-/
import proofs.«130216_j26250840113720_1_alg».proof.Proof.KB.RunA

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Frm

end
-- ==== Proof.KB.RunC.lean ====
/-
  The body at a last contraction step (reset not taken, store-out taken): the accumulator at what the step
  before left, the output buffer at anything; it ends with both stored into.
-/
import proofs.«130216_j26250840113720_1_alg».proof.Proof.KB.RunB

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) :
    Σ' (L2 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Frm

end
-- ==== Proof.KB.Frame.lean ====
/-
  The whole launch of the tiled product: what the accumulator and the output buffer hold after each grid
  point (by recursion on the point: reset-and-add at a first contraction step, add at a middle one, add and
  store out at a last one), the proof data of the call, the body's obligation at every point, the run of @main
  and the frame claim: @main runs to the end, faults nowhere and leaves its ten arguments as launched.
-/
import proofs.«130216_j26250840113720_1_alg».proof.Proof.KB.RunC

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the output buffer holds after the body, case A: its pieces read back (none: a placeholder nothing consults, the window resting there). -/
def out0_A_2 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) : Vec F S1024x1024 .f32 :=
  VO0_2.read (Elt F) (VO0_2.writes (Elt F) VO0_2.junk (kernelRun0_A c i arg3 harg3 arg4 harg4 arg5 harg5 arg6 harg6 hc0 hc1 x0 x1).1)

/-- The stores into the accumulator tile it, case A. -/
theorem scover0_A_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) (y : S1024x1024.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S1024x1024.size (by sl_kernel_rfl) y

/-- What the accumulator holds after the body, case A: its pieces read back. -/
def sout0_A_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) : Vec F S1024x1024 .f32 :=
  VS0_0.read (Elt F) (VS0_0.writes (Elt F) VS0_0.junk (kernelRun0_A c i arg3 harg3 arg4 harg4 arg5 harg5 arg6 harg6 hc0 hc1 x0 x1).2.1)

/-- What the output buffer holds after the body, case B: its pieces read back (none: a placeholder nothing consults, the window resting there). -/
def out0_B_2 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) : Vec F S1024x1024 .f32 :=
  VO0_2.read (Elt F) (VO0_2.writes (Elt F) VO0_2.junk (kernelRun0_B c i arg3 harg3 arg4 harg4 arg5 harg5 arg6 harg6 hc0 hc1 x0 x1 xs0).1)

/-- The stores into the accumulator tile it, case B. -/
theorem scover0_B_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) (y : S1024x1024.Idx) :
    ∃ pc ∈ (kernelRun0_B c i arg3 harg3 arg4 harg4 arg5 harg5 arg6 harg6 hc0 hc1 x0 x1 xs0).2.1, y ∈ pc.1.set :=
  View.cover_of_tiledL (kernelRun0_B c i arg3 harg3 arg4 harg4 arg5 harg5 arg6 harg6 hc0 hc1 x0 x1 xs0).2.1 S1024x1024.size (by sl_kernel_rfl) y

/-- What the accumulator holds after the body, case B: its pieces read back. -/
def sout0_B_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) : Vec F S1024x1024 .f32 :=
  VS0_0.read (Elt F) (VS0_0.writes (Elt F) VS0_0.junk (kernelRun0_B c i arg3 harg3 arg4 harg4 arg5 harg5 arg6 harg6 hc0 hc1 x0 x1 xs0).2.1)

/-- At a last contraction step the stores into the output buffer tile its block. -/
theorem cover0_C_2 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) (y : S1024x1024.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S1024x1024.size (by sl_kernel_rfl) y

/-- What the output buffer holds after the body, case C: its pieces read back. -/
def out0_C_2 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) : Vec F S1024x1024 .f32 :=
  VO0_2.read (Elt F) (VO0_2.writes (Elt F) VO0_2.junk (kernelRun0_C c i arg3 harg3 arg4 harg4 arg5 harg5 arg6 harg6 hc0 hc1 x0 x1 xs0).1)

/-- The stores into the accumulator tile it, case C. -/
theorem scover0_C_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) (y : S1024x1024.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S1024x1024.size (by sl_kernel_rfl) y

/-- What the accumulator holds after the body, case C: its pieces read back. -/
def sout0_C_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) : Vec F S1024x1024 .f32 :=
  VS0_0.read (Elt F) (VS0_0.writes (Elt F) VS0_0.junk (kernelRun0_C c i arg3 harg3 arg4 harg4 arg5 harg5 arg6 harg6 hc0 hc1 x0 x1 xs0).2.1)

/-! ## What the buffers hold after each point -/

/-- After the body at position `n`: the output buffer, then the accumulator. The case is the one the closed
    forms of the two conditions select; the accumulator is read at what position `n - 1` left. -/
def outsAt0 (c : Dev nD) : (n : ℕ) → n < cfg0.N → Vec F S1024x1024 .f32 × Vec F S1024x1024 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 4 = 0 then
      if h1 : (n + 1) % 4 = 3 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 4 = 0) (h1 : ¬t.val % 4 = 3) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The call's invariant before position `n`: before the first point the accumulator at anything; afterwards
    at what the point before left in it; beside it the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The call's proof data -/

/-- The arrays as the call finds them; after the body each operand's buffer at its block and the output's at
    `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body's obligation at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point. The operands' buffers hold their blocks; the point's position modulo four says which
    of the three cases runs; the invariant hands over the accumulator (at anything before the first point, at what
    the point before left afterwards) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 384 := lt_of_lt_of_eq t.isLt (show cfg0.N = 384 from N_0)
  by_cases h0 : t.val % 4 = 0
  · by_cases h1 : t.val % 4 = 3
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcond0_1 t).mp h))) (noFlush0_2 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
  · have hz : t.val ≠ 0 := fun hz => h0 (by rw [hz])
    by_cases h1 : t.val % 4 = 3
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold out0_C_2 sout0_C_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcond0_1 t).mp h))) (noFlush0_2 t (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the accumulator's named contents can be forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 384 := N_0; omega)

/-! ## The run and the frame -/

set_option backward.isDefEq.respectTransparency.types false in
/-- Every weakly fair execution of @main terminates, with every array of the call at what the proof data
    computes and every other unscoped buffer as the host lines after the call leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main runs to the end and its ten arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.Kernel.Frm

end
-- ==== Proof.KI.Kit.lean ====
/-
  The tiled matrix product's launch, seen from @main: what the host lines before the call leave in the
  buffers, the call's three windows and their blocks, the two branch conditions of the body decided over
  the grid (first step of the contraction axis; last step), and where the output window rests.
-/
import proofs.«130216_j26250840113720_1_alg».proof.Proof.Gen.KernelIdeal.Launch
import proofs.«130216_j26250840113720_1_alg».proof.Proof.Gen.KernelIdeal.Skeleton
import proofs.«130216_j26250840113720_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the call -/

/-- Core `c`'s buffers when the call is entered: the launch memory after the host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main is: the host lines before the call, the call, the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (show List.Forall _ [hostOps0] from hostOps0_sub)
    (show List.Forall _ [hostOps0] from hostOps0_fresh) main_chain

/-- The lines after the call touch unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write none of the call's three arrays (each writes its own result buffer only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro w; fin_cases w <;> simp only [StableHlo.unary_writes, StableHlo.reshape_writes, Finset.mem_singleton] <;> exact StableHlo.devRef_ne_of_ne (by decide)

/-! No host line before the call writes an argument of @main: the call finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! Nor does a host line after the call, and none is an array of the call. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The left operand's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The right operand's staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run of the call -/

/-- A run that ends with every array of the call at what the proof data computes and every other unscoped
    buffer as the later host lines leave it, read at @main's ten arguments: none is an array of the call and no
    host line writes one, so each ends as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c)⟩) h

/-! ## The body's two branch conditions -/

/-- "This is the first step along the contraction axis" (the accumulator is reset), from the grid coordinates. -/
abbrev cond0_0 (i : grid0.Coords) : Prop := (Scalar.cmpi .ne (Scalar.extui (Scalar.cmpi .eq (BitVec.ofNat 32 (i 2).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last step along the contraction axis" (the accumulator is stored out). -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows rest -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last contraction step nothing is stored into the output window, -/
theorem idleAt0_2 : ∀ t : Fin cfg0.N, ¬cond0_1 (grid0.coords t) → cfg0.idle 2 (grid0.coords t) = true := by decide +kernel
/-- and its block is not written back there. -/
theorem noFlush0_2 : ∀ t : Fin cfg0.N, ¬cond0_1 (grid0.coords t) → (cfg0.win 2).flush t = false := by decide +kernel
/-- At the last contraction step it is stored into. -/
theorem liveAt0_2 : ∀ t : Fin cfg0.N, cond0_1 (grid0.coords t) → cfg0.idle 2 (grid0.coords t) = false := by decide +kernel

/-! ## The staging memrefs and the accumulator -/

/-- One staging buffer of the output window, through which its contents are stated. -/
abbrev VO0_2 : View sig .tc .vmem S1024x1024 .f32 := (Memref.whole cc0_stg2_0 : Memref sig .tc .vmem S1024x1024 .f32).view
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S1024x1024 .f32 := Memref.whole cc0_scratch0
abbrev VS0_0 : View sig .tc .vmem S1024x1024 .f32 := scM0_0.view

/-- What the call is handed beside its windows: the accumulator at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Frm

end
-- ==== Proof.KI.RunA.lean ====
/-
  The body at a first contraction step (reset taken, store-out not taken): on whole staging memrefs, the two
  operand blocks at their contents, the output buffer handed back as found, the accumulator at anything, it runs
  to the end leaving the accumulator with its stores written. The pieces are what the symbolic run finds.
-/
import proofs.«130216_j26250840113720_1_alg».proof.Proof.KI.Kit

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Frm

end
-- ==== Proof.KI.RunB.lean ====
/-
  The body at a middle contraction step (neither branch taken): the accumulator at what the step before left.
-/
import proofs.«130216_j26250840113720_1_alg».proof.Proof.KI.RunA

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Frm

end
-- ==== Proof.KI.RunC.lean ====
/-
  The body at a last contraction step (reset not taken, store-out taken): the accumulator at what the step
  before left, the output buffer at anything; it ends with both stored into.
-/
import proofs.«130216_j26250840113720_1_alg».proof.Proof.KI.RunB

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) :
    Σ' (L2 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Frm

end
-- ==== Proof.KI.Frame.lean ====
/-
  The whole launch of the tiled product: what the accumulator and the output buffer hold after each grid
  point (by recursion on the point: reset-and-add at a first contraction step, add at a middle one, add and
  store out at a last one), the proof data of the call, the body's obligation at every point, the run of @main
  and the frame claim: @main runs to the end, faults nowhere and leaves its ten arguments as launched.
-/
import proofs.«130216_j26250840113720_1_alg».proof.Proof.KI.RunC

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the output buffer holds after the body, case A: its pieces read back (none: a placeholder nothing consults, the window resting there). -/
def out0_A_2 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) : Vec F S1024x1024 .f32 :=
  VO0_2.read (Elt F) (VO0_2.writes (Elt F) VO0_2.junk (kernelRun0_A c i arg3 harg3 arg4 harg4 arg5 harg5 arg6 harg6 hc0 hc1 x0 x1).1)

/-- The stores into the accumulator tile it, case A. -/
theorem scover0_A_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) (y : S1024x1024.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S1024x1024.size (by sl_kernel_rfl) y

/-- What the accumulator holds after the body, case A: its pieces read back. -/
def sout0_A_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) : Vec F S1024x1024 .f32 :=
  VS0_0.read (Elt F) (VS0_0.writes (Elt F) VS0_0.junk (kernelRun0_A c i arg3 harg3 arg4 harg4 arg5 harg5 arg6 harg6 hc0 hc1 x0 x1).2.1)

/-- What the output buffer holds after the body, case B: its pieces read back (none: a placeholder nothing consults, the window resting there). -/
def out0_B_2 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) : Vec F S1024x1024 .f32 :=
  VO0_2.read (Elt F) (VO0_2.writes (Elt F) VO0_2.junk (kernelRun0_B c i arg3 harg3 arg4 harg4 arg5 harg5 arg6 harg6 hc0 hc1 x0 x1 xs0).1)

/-- The stores into the accumulator tile it, case B. -/
theorem scover0_B_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) (y : S1024x1024.Idx) :
    ∃ pc ∈ (kernelRun0_B c i arg3 harg3 arg4 harg4 arg5 harg5 arg6 harg6 hc0 hc1 x0 x1 xs0).2.1, y ∈ pc.1.set :=
  View.cover_of_tiledL (kernelRun0_B c i arg3 harg3 arg4 harg4 arg5 harg5 arg6 harg6 hc0 hc1 x0 x1 xs0).2.1 S1024x1024.size (by sl_kernel_rfl) y

/-- What the accumulator holds after the body, case B: its pieces read back. -/
def sout0_B_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) : Vec F S1024x1024 .f32 :=
  VS0_0.read (Elt F) (VS0_0.writes (Elt F) VS0_0.junk (kernelRun0_B c i arg3 harg3 arg4 harg4 arg5 harg5 arg6 harg6 hc0 hc1 x0 x1 xs0).2.1)

/-- At a last contraction step the stores into the output buffer tile its block. -/
theorem cover0_C_2 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) (y : S1024x1024.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S1024x1024.size (by sl_kernel_rfl) y

/-- What the output buffer holds after the body, case C: its pieces read back. -/
def out0_C_2 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) : Vec F S1024x1024 .f32 :=
  VO0_2.read (Elt F) (VO0_2.writes (Elt F) VO0_2.junk (kernelRun0_C c i arg3 harg3 arg4 harg4 arg5 harg5 arg6 harg6 hc0 hc1 x0 x1 xs0).1)

/-- The stores into the accumulator tile it, case C. -/
theorem scover0_C_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) (y : S1024x1024.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S1024x1024.size (by sl_kernel_rfl) y

/-- What the accumulator holds after the body, case C: its pieces read back. -/
def sout0_C_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) : Vec F S1024x1024 .f32 :=
  VS0_0.read (Elt F) (VS0_0.writes (Elt F) VS0_0.junk (kernelRun0_C c i arg3 harg3 arg4 harg4 arg5 harg5 arg6 harg6 hc0 hc1 x0 x1 xs0).2.1)

/-! ## What the buffers hold after each point -/

/-- After the body at position `n`: the output buffer, then the accumulator. The case is the one the closed
    forms of the two conditions select; the accumulator is read at what position `n - 1` left. -/
def outsAt0 (c : Dev nD) : (n : ℕ) → n < cfg0.N → Vec F S1024x1024 .f32 × Vec F S1024x1024 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 4 = 0 then
      if h1 : (n + 1) % 4 = 3 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 4 = 0) (h1 : ¬t.val % 4 = 3) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The call's invariant before position `n`: before the first point the accumulator at anything; afterwards
    at what the point before left in it; beside it the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The call's proof data -/

/-- The arrays as the call finds them; after the body each operand's buffer at its block and the output's at
    `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body's obligation at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point. The operands' buffers hold their blocks; the point's position modulo four says which
    of the three cases runs; the invariant hands over the accumulator (at anything before the first point, at what
    the point before left afterwards) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 384 := lt_of_lt_of_eq t.isLt (show cfg0.N = 384 from N_0)
  by_cases h0 : t.val % 4 = 0
  · by_cases h1 : t.val % 4 = 3
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcond0_1 t).mp h))) (noFlush0_2 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
  · have hz : t.val ≠ 0 := fun hz => h0 (by rw [hz])
    by_cases h1 : t.val % 4 = 3
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold out0_C_2 sout0_C_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcond0_1 t).mp h))) (noFlush0_2 t (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the accumulator's named contents can be forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 384 := N_0; omega)

/-! ## The run and the frame -/

set_option backward.isDefEq.respectTransparency.types false in
/-- Every weakly fair execution of @main terminates, with every array of the call at what the proof data
    computes and every other unscoped buffer as the host lines after the call leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main runs to the end and its ten arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.Frm

end
-- ==== Proof.KI.Pieces.lean ====
/-
  What each case of the body leaves, as the body's own arithmetic: the accumulator ends at
  (what it held, or zero after a reset) + left block × right block, and at a last contraction step the
  output buffer takes that same value.
-/
import proofs.«130216_j26250840113720_1_alg».proof.Proof.KI.Frame
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The offsets of the whole-block rectangle are zero on both axes. -/
private theorem hz : (![0, 0] : Fin 2 → Nat) = fun _ => 0 := funext fun a => by fin_cases a <;> rfl

/-- First contraction step: zero, plus the product of the two blocks. -/
theorem sout0_A_0_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) :
    sout0_A_0 c i arg3 harg3 arg4 harg4 arg5 harg5 arg6 harg6 hc0 hc1 x0 x1 = k0_pay2 (k0_pay1 (F := F)) x0 x1 := by
  unfold sout0_A_0
  rw [View.read_writes_eq_canon (Val := Elt F) VS0_0 VS0_0.junk (kernelRun0_A c i arg3 harg3 arg4 harg4 arg5 harg5 arg6 harg6 hc0 hc1 x0 x1).2.1 (scover0_A_0 c i arg3 harg3 arg4 harg4 arg5 harg5 arg6 harg6 hc0 hc1 x0 x1)]
  unfold kernelRun0_A
  dsimp only
  sl_unfold_words
  rw [View.canon_cons_unit_zero (S := S1024x1024) hz, View.readCov_unit_zero (S := S1024x1024) arg6.view hz]
  simp only [View.readAt_eq_ld, harg3.read_unread, harg4.read_unread, View.ld_unit_zero (S := S1024x1024) hz]

/-- Middle step: what the step before left, plus the product of the two blocks. -/
theorem sout0_B_0_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) :
    sout0_B_0 c i arg3 harg3 arg4 harg4 arg5 harg5 arg6 harg6 hc0 hc1 x0 x1 xs0 = k0_pay2 xs0 x0 x1 := by
  unfold sout0_B_0
  rw [View.read_writes_eq_canon (Val := Elt F) VS0_0 VS0_0.junk (kernelRun0_B c i arg3 harg3 arg4 harg4 arg5 harg5 arg6 harg6 hc0 hc1 x0 x1 xs0).2.1 (scover0_B_0 c i arg3 harg3 arg4 harg4 arg5 harg5 arg6 harg6 hc0 hc1 x0 x1 xs0)]
  unfold kernelRun0_B
  dsimp only
  sl_unfold_words
  rw [View.canon_unit_zero (S := S1024x1024) hz]
  simp only [View.readAt_eq_ld, harg3.read_unread, harg4.read_unread, harg6.read_unread, View.ld_unit_zero (S := S1024x1024) hz]

/-- Last step: the same sum in the accumulator, -/
theorem sout0_C_0_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) :
    sout0_C_0 c i arg3 harg3 arg4 harg4 arg5 harg5 arg6 harg6 hc0 hc1 x0 x1 xs0 = k0_pay2 xs0 x0 x1 := by
  unfold sout0_C_0
  rw [View.read_writes_eq_canon (Val := Elt F) VS0_0 VS0_0.junk (kernelRun0_C c i arg3 harg3 arg4 harg4 arg5 harg5 arg6 harg6 hc0 hc1 x0 x1 xs0).2.1 (scover0_C_0 c i arg3 harg3 arg4 harg4 arg5 harg5 arg6 harg6 hc0 hc1 x0 x1 xs0)]
  unfold kernelRun0_C
  dsimp only
  sl_unfold_words
  rw [View.canon_unit_zero (S := S1024x1024) hz]
  simp only [View.readAt_eq_ld, harg3.read_unread, harg4.read_unread, harg6.read_unread, View.ld_unit_zero (S := S1024x1024) hz]

/-- and in the output buffer. -/
theorem out0_C_2_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) :
    out0_C_2 c i arg3 harg3 arg4 harg4 arg5 harg5 arg6 harg6 hc0 hc1 x0 x1 xs0 = k0_pay2 xs0 x0 x1 := by
  unfold out0_C_2
  rw [View.read_writes_eq_canon (Val := Elt F) VO0_2 VO0_2.junk (kernelRun0_C c i arg3 harg3 arg4 harg4 arg5 harg5 arg6 harg6 hc0 hc1 x0 x1 xs0).1 (cover0_C_2 c i arg3 harg3 arg4 harg4 arg5 harg5 arg6 harg6 hc0 hc1 x0 x1 xs0)]
  unfold kernelRun0_C
  dsimp only
  sl_unfold_words
  rw [View.canon_unit_zero (S := S1024x1024) hz, View.readCov_unit_zero (S := S1024x1024) arg6.view hz]
  simp only [View.readAt_eq_ld, harg3.read_unread, harg4.read_unread, harg6.read_unread, View.ld_unit_zero (S := S1024x1024) hz]

end Cert.KernelIdeal.Frm

end
-- ==== Proof.KI.Names.lean ====
/-
  Names for the two operand arrays of the tiled product as the call finds them, and the product itself:
  entry (r, n) is the sum over the 4096 contraction positions of left (r, d) times right (d, n).
-/
import proofs.«130216_j26250840113720_1_alg».proof.Proof.KI.Kit
import Idealize.ShloMosaic.Lib.ValueIdx

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (m : (ℓ : Loc nD τ sig) → Buf (Elt Ideal) ℓ) (ρ : Dev nD → PrngReg)

/-- The left operand as the call finds it: 8192 rows (batch and position flattened) by 4096 features. -/
abbrev xarr (c : Dev nD) : Vec Ideal S8192x4096 .bf16 := V m c main_v20
/-- The right operand: 4096 features by 12288 output columns (three projections side by side). -/
abbrev warr (c : Dev nD) : Vec Ideal S4096x12288 .bf16 := V m c main_v18

/-- @main's ten arguments as launched, at their literal shapes. -/
abbrev arg0 (c : Dev nD) : Vec Ideal S4x2048x4096 .f32 := m ((c.tc : Thread nD τ).loc main_arg0)
abbrev arg1 (c : Dev nD) : Vec Ideal S4096x4096 .f32 := m ((c.tc : Thread nD τ).loc main_arg1)
abbrev arg2 (c : Dev nD) : Vec Ideal S4096x4096 .f32 := m ((c.tc : Thread nD τ).loc main_arg2)
abbrev arg3 (c : Dev nD) : Vec Ideal S4096x4096 .f32 := m ((c.tc : Thread nD τ).loc main_arg3)
abbrev arg4 (c : Dev nD) : Vec Ideal S16x4096 .f32 := m ((c.tc : Thread nD τ).loc main_arg4)
abbrev arg5 (c : Dev nD) : Vec Ideal S4096x16 .f32 := m ((c.tc : Thread nD τ).loc main_arg5)
abbrev arg6 (c : Dev nD) : Vec Ideal S16x4096 .f32 := m ((c.tc : Thread nD τ).loc main_arg6)
abbrev arg7 (c : Dev nD) : Vec Ideal S4096x16 .f32 := m ((c.tc : Thread nD τ).loc main_arg7)
abbrev arg8 (c : Dev nD) : Vec Ideal S16x4096 .f32 := m ((c.tc : Thread nD τ).loc main_arg8)
abbrev arg9 (c : Dev nD) : Vec Ideal S4096x16 .f32 := m ((c.tc : Thread nD τ).loc main_arg9)

/-- Row of the flattened input: batch b, position s. -/
def rowOf (b : Fin 4) (s : Fin 2048) : Fin 8192 := ⟨b.val * 2048 + s.val, by omega⟩
/-- Output feature h of the first, second, third projection as a column of the side-by-side weight. -/
def colQ (h : Fin 4096) : Fin 12288 := ⟨h.val, by omega⟩
def colK (h : Fin 4096) : Fin 12288 := ⟨4096 + h.val, by omega⟩
def colV (h : Fin 4096) : Fin 12288 := ⟨8192 + h.val, by omega⟩

/-- One entry of the product. -/
def prodAt (c : Dev nD) (r : Fin 8192) (n : Fin 12288) : EReal :=
  ∑ d : Fin 4096, xarr m c (ix2 r d) * warr m c (ix2 d n)

/-- The product array. -/
def prod (c : Dev nD) : Vec Ideal S8192x12288 .f32 := fun j => prodAt m c (j 0) (j 1)

end Cert.KernelIdeal.Frm

end
-- ==== Proof.Spec.lean ====
/-
  The two forms of one low-rank-adapted linear map, as functions of the argument arrays, index by index.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨3, ![4, 2048, 4096]⟩
abbrev SW : Shape := ⟨2, ![4096, 4096]⟩
abbrev SA : Shape := ⟨2, ![16, 4096]⟩
abbrev SB : Shape := ⟨2, ![4096, 16]⟩

/-- The f32 word of 1.0 read as an extended real. -/
def one : EReal := Ideal.ofBits .f32 0x3F800000#32

theorem one_eq : one = 1 := by
  unfold one
  simp [Ideal.ofBits, Ideal.ieee, -EReal.coe_mul]; norm_num

/-- The coercion of the reals into the extended reals commutes with finite sums. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The adapter law over the reals: distribute, then exchange the two summations. -/
private theorem real_law {D R : Type*} [Fintype D] [Fintype R]
    (x W : D → ℝ) (A : R → D → ℝ) (B : R → ℝ) :
    ∑ d, x d * (W d + 1 * ∑ r, A r d * B r)
      = (∑ d, x d * W d) + ∑ r, (∑ d, x d * A r d) * (1 * B r) := by
  simp only [one_mul, mul_add, Finset.sum_add_distrib, Finset.mul_sum, Finset.sum_mul]
  congr 1
  rw [Finset.sum_comm]
  refine Finset.sum_congr rfl fun r _ => Finset.sum_congr rfl fun d _ => ?_
  ring

/-- The same law for extended reals all of whose entries are real: every product and sum
    stays inside the reals, where the extended reals do distribute. -/
private theorem ereal_law {D R : Type*} [Fintype D] [Fintype R]
    (x W : D → ℝ) (A : R → D → ℝ) (B : R → ℝ) :
    ∑ d, (x d : EReal) * ((W d : EReal) + 1 * ∑ r, (A r d : EReal) * (B r : EReal))
      = (∑ d, (x d : EReal) * (W d : EReal))
        + ∑ r, (∑ d, (x d : EReal) * (A r d : EReal)) * (1 * (B r : EReal)) := by
  have h := congrArg (fun t : ℝ => (t : EReal)) (real_law x W A B)
  simp only [EReal.coe_add, EReal.coe_mul, coe_sum, EReal.coe_one] at h
  exact h

/-- Weight folded first: x · (Wᵀ + 1·(Aᵀ Bᵀ)), at batch b, position s, output feature h. -/
def fusedAt (x : SX.Idx → EReal) (W : SW.Idx → EReal) (A : SA.Idx → EReal) (B : SB.Idx → EReal)
    (b : Fin 4) (s : Fin 2048) (h : Fin 4096) : EReal :=
  ∑ d : Fin 4096, x (ix3 b s d) * (W (ix2 h d) + one * ∑ r : Fin 16, A (ix2 r d) * B (ix2 h r))

/-- Two paths added: x · Wᵀ + (x · Aᵀ) · (1·B)ᵀ. -/
def splitAt (x : SX.Idx → EReal) (W : SW.Idx → EReal) (A : SA.Idx → EReal) (B : SB.Idx → EReal)
    (b : Fin 4) (s : Fin 2048) (h : Fin 4096) : EReal :=
  (∑ d : Fin 4096, x (ix3 b s d) * W (ix2 h d))
    + ∑ r : Fin 16, (∑ d : Fin 4096, x (ix3 b s d) * A (ix2 r d)) * (one * B (ix2 h r))

def fused (x : SX.Idx → EReal) (W : SW.Idx → EReal) (A : SA.Idx → EReal) (B : SB.Idx → EReal) : SX.Idx → EReal :=
  fun i => fusedAt x W A B (i 0) (i 1) (i 2)

def split (x : SX.Idx → EReal) (W : SW.Idx → EReal) (A : SA.Idx → EReal) (B : SB.Idx → EReal) : SX.Idx → EReal :=
  fun i => splitAt x W A B (i 0) (i 1) (i 2)

/-- Every entry is a real number. -/
def Finite {S : Shape} (f : S.Idx → EReal) : Prop := ∀ i, f i ≠ ⊤ ∧ f i ≠ ⊥

/-- Index by index the two forms agree: write every entry as the coercion of its real part. -/
theorem fusedAt_eq_splitAt {x : SX.Idx → EReal} {W : SW.Idx → EReal} {A : SA.Idx → EReal} {B : SB.Idx → EReal}
    (hx : Finite x) (hW : Finite W) (hA : Finite A) (hB : Finite B) (b : Fin 4) (s : Fin 2048) (h : Fin 4096) :
    fusedAt x W A B b s h = splitAt x W A B b s h := by
  have ex : ∀ i, ((x i).toReal : EReal) = x i := fun i => EReal.coe_toReal (hx i).1 (hx i).2
  have eW : ∀ i, ((W i).toReal : EReal) = W i := fun i => EReal.coe_toReal (hW i).1 (hW i).2
  have eA : ∀ i, ((A i).toReal : EReal) = A i := fun i => EReal.coe_toReal (hA i).1 (hA i).2
  have eB : ∀ i, ((B i).toReal : EReal) = B i := fun i => EReal.coe_toReal (hB i).1 (hB i).2
  have key := ereal_law (fun d : Fin 4096 => (x (ix3 b s d)).toReal) (fun d : Fin 4096 => (W (ix2 h d)).toReal)
    (fun (r : Fin 16) (d : Fin 4096) => (A (ix2 r d)).toReal) (fun r : Fin 16 => (B (ix2 h r)).toReal)
  simp only [ex, eW, eA, eB] at key
  unfold fusedAt splitAt
  rw [one_eq]
  exact key

theorem fused_eq_split {x : SX.Idx → EReal} {W : SW.Idx → EReal} {A : SA.Idx → EReal} {B : SB.Idx → EReal}
    (hx : Finite x) (hW : Finite W) (hA : Finite A) (hB : Finite B) : fused x W A B = split x W A B := by
  funext i
  exact fusedAt_eq_splitAt hx hW hA hB (i 0) (i 1) (i 2)

/-- A sum over 4096 terms, cut into four runs of 1024. -/
theorem sum_four_blocks {M : Type*} [AddCommMonoid M] (f : Fin 4096 → M) :
    ∑ d : Fin 4096, f d = ∑ j : Fin 4, ∑ k : Fin 1024, f ⟨j.val * 1024 + k.val, by omega⟩ := by
  rw [← Fintype.sum_prod_type' (f := fun (j : Fin 4) (k : Fin 1024) => f ⟨j.val * 1024 + k.val, by omega⟩)]
  refine (Fintype.sum_equiv (finProdFinEquiv (m := 4) (n := 1024)) _ f (fun p => ?_)).symm
  congr 1
  apply Fin.ext
  show p.1.val * 1024 + p.2.val = p.2.val + 1024 * p.1.val
  omega

end Cert.Spec

end
-- ==== Proof.KI.Value.lean ====
/-
  The output array after the launch is the product of the two operand arrays: at each (row block, column
  block) the four contraction steps add up the four partial products, and the 8 × 12 written-back blocks tile
  the array.
-/
import proofs.«130216_j26250840113720_1_alg».proof.Proof.KI.Pieces
import proofs.«130216_j26250840113720_1_alg».proof.Proof.KI.Names
import proofs.«130216_j26250840113720_1_alg».proof.Proof.Spec
import Idealize.ShloMosaic.Lib.Pipeline.Value
import Idealize.ShloMosaic.PureOps.Ideal.Laws

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (m : (ℓ : Loc nD τ sig) → Buf (Elt Ideal) ℓ) (ρ : Dev nD → PrngReg)

/-! ## The body's arithmetic at an index -/

/-- The dimension numbers of the block product: rows of the left block against columns of the right. -/
private abbrev DD := dot_S1024x1024_S1024x1024_S1024x1024_1_0_0_1_n_n

private theorem lhs_blk_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
private theorem lhs_blk_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
private theorem rhs_blk_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
private theorem rhs_blk_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The block product into a zero accumulator, at row p and column q: the sum over the 1024 inner positions. -/
private theorem blockmm_apply (x0 x1 : FVec Ideal S1024x1024 .bf16) (p q : Fin 1024) :
    matmul (φ₁ := .bf16) (φ₂ := .bf16) dot_S1024x1024_S1024x1024_S1024x1024_1_0_0_1_n_n none x0 x1 (constant (F := Ideal) S1024x1024 .f32 0x00000000#32) (ix2 p q)
      = ∑ e : Fin 1024, x0 (ix2 p e) * x1 (ix2 e q) := by
  refine (Ideal.matmul_constant_zero_apply dot_S1024x1024_S1024x1024_S1024x1024_1_0_0_1_n_n none x0 x1 (ix2 p q)).trans ?_
  rw [← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact lhs_blk_0 _ _
    | ⟨1, _⟩ => exact (lhs_blk_1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (rhs_blk_0 _ _).trans hk
    | ⟨1, _⟩ => exact rhs_blk_1 _ _)
  rw [el, er]

/-- One contraction step: what the accumulator held plus the product of the two blocks. -/
private theorem pay2_apply (xs : Vec Ideal S1024x1024 .f32) (x0 x1 : Vec Ideal S1024x1024 .bf16) (p q : Fin 1024) :
    k0_pay2 xs x0 x1 (ix2 p q) = xs (ix2 p q) + ∑ e : Fin 1024, x0 (ix2 p e) * x1 (ix2 e q) := by
  have e : k0_pay2 (F := Ideal) xs x0 x1
      = addf xs (matmul (φ₁ := .bf16) (φ₂ := .bf16) dot_S1024x1024_S1024x1024_S1024x1024_1_0_0_1_n_n none x0 x1 (constant (F := Ideal) S1024x1024 .f32 0x00000000#32)) := by
    unfold k0_pay2
    simp only [shapeCast_self]
  rw [e]
  exact congrArg (xs (ix2 p q) + ·) (blockmm_apply x0 x1 p q)

/-- The reset value is zero everywhere. -/
private theorem pay1_apply (p q : Fin 1024) : k0_pay1 (F := Ideal) (ix2 p q) = 0 := by
  have e : k0_pay1 (F := Ideal) = broadcast S1024x1024 (Scalar.ofBits (F := Ideal) .f32 0x00000000#32) := by
    unfold k0_pay1
    simp only [shapeCast_self]
  rw [e]
  exact Ideal.ofBits_zero_f32

/-! ## Where each block sits -/

/-- The block indices of the three windows at a point: (row block, inner block) for the left operand,
    (inner block, column block) for the right, (row block, column block) for the output. -/
private theorem idx_facts : ∀ t : Fin cfg0.N,
    win0_0.index t (0 : Fin 2) = t.val / 48 ∧ win0_0.index t (1 : Fin 2) = t.val % 4
    ∧ win0_1.index t (0 : Fin 2) = t.val % 4 ∧ win0_1.index t (1 : Fin 2) = t.val / 4 % 12
    ∧ win0_2.index t (0 : Fin 2) = t.val / 48 ∧ win0_2.index t (1 : Fin 2) = t.val / 4 % 12 :=
  (by decide +kernel : ∀ t : Fin grid0.N, _)

/-- The two operand blocks at a point, at their literal type. -/
private abbrev xblk (c : Dev nD) (t : Fin cfg0.N) : Vec Ideal S1024x1024 .bf16 := iblk m c 0 t
private abbrev wblk (c : Dev nD) (t : Fin cfg0.N) : Vec Ideal S1024x1024 .bf16 := iblk m c 1 t

/-- Entry (p, e) of the left block at point t is entry (row block · 1024 + p, inner block · 1024 + e) of the left array. -/
private theorem xblk_apply (c : Dev nD) (t : Fin cfg0.N) (p e : Fin 1024) (r : Fin 8192) (d : Fin 4096)
    (hr : r.val = t.val / 48 * 1024 + p.val) (hd : d.val = t.val % 4 * 1024 + e.val) :
    xblk m c t (ix2 p e) = xarr m c (ix2 r d) := by
  show V m c main_v20 (((cfg0.win 0).blk t).view.emb (ix2 p e)) = V m c main_v20 (ix2 r d)
  refine congrArg (V m c main_v20) (funext fun a => Fin.ext ?_)
  obtain ⟨e0, e1, -⟩ := idx_facts t
  match a with
  | ⟨0, _⟩ => show win0_0.index t (0 : Fin 2) * 1024 + 1 * p.val = r.val; rw [e0, hr]; omega
  | ⟨1, _⟩ => show win0_0.index t (1 : Fin 2) * 1024 + 1 * e.val = d.val; rw [e1, hd]; omega

/-- Entry (e, q) of the right block at point t is entry (inner block · 1024 + e, column block · 1024 + q) of the right array. -/
private theorem wblk_apply (c : Dev nD) (t : Fin cfg0.N) (e q : Fin 1024) (d : Fin 4096) (n : Fin 12288)
    (hd : d.val = t.val % 4 * 1024 + e.val) (hn : n.val = t.val / 4 % 12 * 1024 + q.val) :
    wblk m c t (ix2 e q) = warr m c (ix2 d n) := by
  show V m c main_v18 (((cfg0.win 1).blk t).view.emb (ix2 e q)) = V m c main_v18 (ix2 d n)
  refine congrArg (V m c main_v18) (funext fun a => Fin.ext ?_)
  obtain ⟨-, -, e2, e3, -⟩ := idx_facts t
  match a with
  | ⟨0, _⟩ => show win0_1.index t (0 : Fin 2) * 1024 + 1 * e.val = d.val; rw [e2, hd]; omega
  | ⟨1, _⟩ => show win0_1.index t (1 : Fin 2) * 1024 + 1 * q.val = n.val; rw [e3, hn]; omega

/-! ## The written-back blocks tile the output -/

/-- An index of the output array is in point t's block iff each coordinate is in the block's range. -/
private theorem mem_blk (t : Fin cfg0.N) (i : S8192x12288.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v21).slice (win0_2.rect t)).set ↔ _
  rw [View.set_slice_whole, Rect.mem_set_unit]
  exact Iff.rfl

/-- Row r, column n lies in the block written back at the last inner step of row block r / 1024, column block n / 1024. -/
private theorem cover (i : S8192x12288.Idx) :
    ∃ t : Fin cfg0.N, (cfg0.win 2).flush t = true ∧ i ∈ ((cfg0.win 2).blk t).view.set := by
  have hN : cfg0.N = 384 := N_0
  have hr : (i 0).val < 8192 := (i 0).isLt
  have hn : (i 1).val < 12288 := (i 1).isLt
  obtain ⟨t, ht⟩ : ∃ t : Fin cfg0.N, t.val = 48 * ((i 0).val / 1024) + 4 * ((i 1).val / 1024) + 3 :=
    ⟨⟨48 * ((i 0).val / 1024) + 4 * ((i 1).val / 1024) + 3, by omega⟩, rfl⟩
  refine ⟨t, (flush0_2 t).mpr (by omega), ?_⟩
  rw [mem_blk]
  obtain ⟨-, -, -, -, e4, e5⟩ := idx_facts t
  intro a
  match a with
  | ⟨0, _⟩ => show win0_2.index t (0 : Fin 2) * 1024 ≤ (i 0).val ∧ (i 0).val < win0_2.index t (0 : Fin 2) * 1024 + 1024; rw [e4, ht]; omega
  | ⟨1, _⟩ => show win0_2.index t (1 : Fin 2) * 1024 ≤ (i 1).val ∧ (i 1).val < win0_2.index t (1 : Fin 2) * 1024 + 1024; rw [e5, ht]; omega

/-! ## The accumulation over the inner blocks -/

/-- The product of block (i, kb) of the left array with block (kb, j) of the right one, at (p, q). The block
    numbers are reduced into their ranges, so the entry is defined at all naturals. -/
private def bp (c : Dev nD) (i j kb : ℕ) (p q : Fin 1024) : EReal :=
  ∑ e : Fin 1024, xarr m c (ix2 ⟨i % 8 * 1024 + p.val, by omega⟩ ⟨kb % 4 * 1024 + e.val, by omega⟩)
    * warr m c (ix2 ⟨kb % 4 * 1024 + e.val, by omega⟩ ⟨j % 12 * 1024 + q.val, by omega⟩)

/-- The product of the two blocks a point reads is that block product of the arrays. -/
private theorem blockprod (c : Dev nD) (t : Fin cfg0.N) (p q : Fin 1024) :
    ∑ e : Fin 1024, xblk m c t (ix2 p e) * wblk m c t (ix2 e q)
      = bp m c (t.val / 48) (t.val / 4 % 12) (t.val % 4) p q := by
  have hN : cfg0.N = 384 := N_0
  have ht : t.val < 384 := by have := t.isLt; omega
  unfold bp
  refine Finset.sum_congr rfl fun e _ => ?_
  exact congrArg₂ (· * ·)
    (xblk_apply m c t p e ⟨t.val / 48 % 8 * 1024 + p.val, by omega⟩ ⟨t.val % 4 % 4 * 1024 + e.val, by omega⟩
      (by show t.val / 48 % 8 * 1024 + p.val = t.val / 48 * 1024 + p.val; omega)
      (by show t.val % 4 % 4 * 1024 + e.val = t.val % 4 * 1024 + e.val; omega))
    (wblk_apply m c t e q ⟨t.val % 4 % 4 * 1024 + e.val, by omega⟩ ⟨t.val / 4 % 12 % 12 * 1024 + q.val, by omega⟩
      (by show t.val % 4 % 4 * 1024 + e.val = t.val % 4 * 1024 + e.val; omega)
      (by show t.val / 4 % 12 % 12 * 1024 + q.val = t.val / 4 % 12 * 1024 + q.val; omega))

/-- What the accumulator holds after point n: the block products of the inner blocks 0 … n mod 4 added up,
    for the row block and column block of that point. -/
private def acc (c : Dev nD) (n : ℕ) : Vec Ideal S1024x1024 .f32 :=
  fun y => ∑ kb ∈ Finset.range (n % 4 + 1), bp m c (n / 48) (n / 4 % 12) kb (y 0) (y 1)

private theorem acc_apply (c : Dev nD) (n : ℕ) (p q : Fin 1024) :
    acc m c n (ix2 p q) = ∑ kb ∈ Finset.range (n % 4 + 1), bp m c (n / 48) (n / 4 % 12) kb p q := rfl

/-- A first inner step leaves the first block product. -/
private theorem step_first (c : Dev nD) (t : Fin cfg0.N) (h0 : t.val % 4 = 0) :
    k0_pay2 (k0_pay1 (F := Ideal)) (xblk m c t) (wblk m c t) = acc m c t.val := by
  funext y
  obtain ⟨p, q, rfl⟩ : ∃ (p q : Fin 1024), y = ix2 p q := ⟨y 0, y 1, eq_ix2 y⟩
  rw [pay2_apply, pay1_apply, zero_add, acc_apply, blockprod, h0, Nat.zero_add, Finset.sum_range_one]

/-- A later inner step adds its block product to what the step before left. -/
private theorem step_next (c : Dev nD) (t : Fin cfg0.N) (h0 : ¬t.val % 4 = 0) :
    k0_pay2 (acc m c (t.val - 1)) (xblk m c t) (wblk m c t) = acc m c t.val := by
  funext y
  obtain ⟨p, q, rfl⟩ : ∃ (p q : Fin 1024), y = ix2 p q := ⟨y 0, y 1, eq_ix2 y⟩
  have e1 : (t.val - 1) / 48 = t.val / 48 := by omega
  have e2 : (t.val - 1) / 4 % 12 = t.val / 4 % 12 := by omega
  have e5 : (t.val - 1) % 4 + 1 = t.val % 4 := by omega
  rw [pay2_apply, acc_apply, acc_apply, blockprod, e1, e2, e5, Finset.sum_range_succ]

/-- The accumulator after every point is that partial sum: by induction on the point, through the three cases
    of the body. -/
private theorem acc_inv (c : Dev nD) : ∀ (n : ℕ) (h : n < cfg0.N), (outsAt0 m c n h).2 = acc m c n
  | 0, h => by
    rw [outsAt0_A m c ⟨0, h⟩ rfl (by show ¬(0 : ℕ) % 4 = 3; decide)]
    dsimp only
    exact (sout0_A_0_eq (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _)
      ((hcond0_0 ⟨0, h⟩).mpr rfl) (fun hc => absurd ((hcond0_1 ⟨0, h⟩).mp hc) (by show ¬(0 : ℕ) % 4 = 3; decide)) (xblk m c ⟨0, h⟩) (wblk m c ⟨0, h⟩)).trans
      (step_first m c ⟨0, h⟩ rfl)
  | n + 1, h => by
    have ih := acc_inv c n (Nat.lt_of_succ_lt h)
    by_cases h0 : (n + 1) % 4 = 0
    · have h1 : ¬(n + 1) % 4 = 3 := by omega
      rw [outsAt0_A m c ⟨n + 1, h⟩ h0 h1]
      dsimp only
      exact (sout0_A_0_eq (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _)
        ((hcond0_0 ⟨n + 1, h⟩).mpr h0) (fun hc => h1 ((hcond0_1 ⟨n + 1, h⟩).mp hc)) (xblk m c ⟨n + 1, h⟩) (wblk m c ⟨n + 1, h⟩)).trans
        (step_first m c ⟨n + 1, h⟩ h0)
    · by_cases h1 : (n + 1) % 4 = 3
      · rw [outsAt0_C m c ⟨n + 1, h⟩ h0 h1]
        dsimp only
        exact ((sout0_C_0_eq (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _)
          (fun hc => h0 ((hcond0_0 ⟨n + 1, h⟩).mp hc)) ((hcond0_1 ⟨n + 1, h⟩).mpr h1) (xblk m c ⟨n + 1, h⟩) (wblk m c ⟨n + 1, h⟩)
          (outsAt0 m c n (Nat.lt_of_succ_lt h)).2).trans
          (congrArg (fun a => k0_pay2 a (xblk m c ⟨n + 1, h⟩) (wblk m c ⟨n + 1, h⟩)) ih)).trans
          (step_next m c ⟨n + 1, h⟩ h0)
      · rw [outsAt0_B m c ⟨n + 1, h⟩ h0 h1]
        dsimp only
        exact ((sout0_B_0_eq (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _)
          (fun hc => h0 ((hcond0_0 ⟨n + 1, h⟩).mp hc)) (fun hc => h1 ((hcond0_1 ⟨n + 1, h⟩).mp hc)) (xblk m c ⟨n + 1, h⟩) (wblk m c ⟨n + 1, h⟩)
          (outsAt0 m c n (Nat.lt_of_succ_lt h)).2).trans
          (congrArg (fun a => k0_pay2 a (xblk m c ⟨n + 1, h⟩) (wblk m c ⟨n + 1, h⟩)) ih)).trans
          (step_next m c ⟨n + 1, h⟩ h0)

/-- After a last inner step the four block products are the sum over all 4096 inner positions: an entry of
    the product. -/
private theorem acc_last (c : Dev nD) (t : Fin cfg0.N) (h3 : t.val % 4 = 3) (p q : Fin 1024) (r : Fin 8192) (n : Fin 12288)
    (hr : r.val = t.val / 48 * 1024 + p.val) (hn : n.val = t.val / 4 % 12 * 1024 + q.val) :
    acc m c t.val (ix2 p q) = prodAt m c r n := by
  have hN : cfg0.N = 384 := N_0
  have ht : t.val < 384 := by have := t.isLt; omega
  rw [acc_apply, h3]
  unfold prodAt
  rw [Cert.Spec.sum_four_blocks (fun d : Fin 4096 => xarr m c (ix2 r d) * warr m c (ix2 d n))]
  show ∑ kb ∈ Finset.range 4, bp m c (t.val / 48) (t.val / 4 % 12) kb p q = _
  rw [Finset.sum_range]
  refine Finset.sum_congr rfl fun kb _ => ?_
  unfold bp
  refine Finset.sum_congr rfl fun e _ => ?_
  have a1 : (⟨t.val / 48 % 8 * 1024 + p.val, by omega⟩ : Fin 8192) = r :=
    Fin.ext (by show t.val / 48 % 8 * 1024 + p.val = r.val; omega)
  have a2 : (⟨kb.val % 4 * 1024 + e.val, by omega⟩ : Fin 4096) = ⟨kb.val * 1024 + e.val, by omega⟩ :=
    Fin.ext (by show kb.val % 4 * 1024 + e.val = kb.val * 1024 + e.val; omega)
  have a3 : (⟨t.val / 4 % 12 % 12 * 1024 + q.val, by omega⟩ : Fin 12288) = n :=
    Fin.ext (by show t.val / 4 % 12 % 12 * 1024 + q.val = n.val; omega)
  rw [a1, a2, a3]

/-! ## From the blocks to the array -/

/-- What a last inner step writes back is the product read through that point's block. -/
private theorem flushed_eq (c : Dev nD) (t : Fin cfg0.N) (hf : (cfg0.win 2).flush t = true) :
    (dats m 0 c).flushed 2 t = ((cfg0.win 2).blk t).view.read (Elt Ideal) (prod m c) := by
  have h3 : t.val % 4 = 3 := (flush0_2 t).mp hf
  have h0 : ¬t.val % 4 = 0 := by omega
  obtain ⟨-, -, -, -, e4, e5⟩ := idx_facts t
  show (cfg0.win 2).cut (grid0.coords t) ((dats m 0 c).after 2 t) = _
  rw [after0_2, outsAt0_C m c t h0 h3]
  dsimp only
  have hprev : (outsAt0 m c (t.val - 1) (Nat.lt_of_le_of_lt (Nat.sub_le _ _) t.isLt)).2 = acc m c (t.val - 1) :=
    acc_inv m c (t.val - 1) (Nat.lt_of_le_of_lt (Nat.sub_le _ _) t.isLt)
  have hblk : out0_C_2 c (grid0.coords t) (ms0_0 t) (hs0_0 t) (ms0_1 t) (hs0_1 t) (ms0_2 t) (hs0_2 t) scM0_0 (Memref.isWhole_whole _)
      (fun hc => h0 ((hcond0_0 t).mp hc)) ((hcond0_1 t).mpr h3) (xblk m c t) (wblk m c t)
      (outsAt0 m c (t.val - 1) (Nat.lt_of_le_of_lt (Nat.sub_le _ _) t.isLt)).2 = acc m c t.val :=
    ((out0_C_2_eq (F := Ideal) c (grid0.coords t) (ms0_0 t) (hs0_0 t) (ms0_1 t) (hs0_1 t) (ms0_2 t) (hs0_2 t) scM0_0 (Memref.isWhole_whole _)
      (fun hc => h0 ((hcond0_0 t).mp hc)) ((hcond0_1 t).mpr h3) (xblk m c t) (wblk m c t)
      (outsAt0 m c (t.val - 1) (Nat.lt_of_le_of_lt (Nat.sub_le _ _) t.isLt)).2).trans
      (congrArg (fun a => k0_pay2 a (xblk m c t) (wblk m c t)) hprev)).trans (step_next m c t h0)
  funext y
  refine (congrFun hblk y).trans ?_
  show acc m c t.val (y : S1024x1024.Idx)
    = prodAt m c ((((cfg0.win 2).blk t).view.emb y) 0) ((((cfg0.win 2).blk t).view.emb y) 1)
  exact (congrArg (acc m c t.val) (eq_ix2 (y : S1024x1024.Idx))).trans
    (acc_last m c t h3 (y 0) (y 1) _ _
      (by show win0_2.index t (0 : Fin 2) * 1024 + 1 * (y 0).val = t.val / 48 * 1024 + (y 0).val; rw [e4]; omega)
      (by show win0_2.index t (1 : Fin 2) * 1024 + 1 * (y 1).val = t.val / 4 % 12 * 1024 + (y 1).val; rw [e5]; omega))

/-- After the last grid point the call's output array (window 2) holds the product. -/
theorem final (c : Dev nD) : (dats m 0 c).arrAt 2 cfg0.N = prod m c :=
  (dats m 0 c).arrAt_eq_of_cover 2 (prod m c) (flushed_eq m c) (fun i => cover i)

end Cert.KernelIdeal.Frm

end
-- ==== Proof.KI.HostVals.lean ====
/-
  The host lines around the call, read at an index. Before it: the left operand is the input with batch and
  position flattened; the right operand is, column block by column block, a transposed weight plus one times
  the product of its two low-rank factors. After it: each result is a third of the product's columns, with the
  rows unflattened.
-/
import proofs.«130216_j26250840113720_1_alg».proof.Proof.KI.Frame
import proofs.«130216_j26250840113720_1_alg».proof.Proof.KI.Names
import proofs.«130216_j26250840113720_1_alg».proof.Proof.Spec
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (m : (ℓ : Loc nD τ sig) → Buf (Elt Ideal) ℓ) (ρ : Dev nD → PrngReg)

/-- An operation over a literal family of three references: its result, each operand's contents read at its own reference. -/
private theorem nary3_result {τ : Topo} {sig : RefSig} {Val : EltTy → Type} {x a b y : Ref sig .tc}
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

/-- What a reference holds after a literal list of host operations: the operation that wrote it gives its function of
    its operands' contents, every other operation leaves it as it was. -/
local macro "host_results" : tactic =>
  `(tactic| (simp (disch := decide) only [StableHlo.after_cons, StableHlo.after_nil,
      StableHlo.nullary_result', StableHlo.unary_result', StableHlo.binary_result', StableHlo.reshape_result', nary3_result,
      StableHlo.nullary_result_ne', StableHlo.unary_result_ne', StableHlo.binary_result_ne', StableHlo.reshape_result_ne',
      StableHlo.nary_result_ne']))

/-- One projection's block of the right operand: the weight transposed, plus one times the product of its two
    factors, narrowed. -/
private def piece (W : FVec Ideal S4096x4096 .f32) (A : FVec Ideal S16x4096 .f32) (B : FVec Ideal S4096x16 .f32) :
    FVec Ideal S4096x4096 .bf16 :=
  truncf (F := Ideal) .bf16 (addf (F := Ideal) (transpose S4096x4096 [1, 0] W transposes_S4096x4096_S4096x4096_1_0)
    (mulf (F := Ideal) (broadcastInDim S4096x4096 ![] bcast_S_S4096x4096 (constant (F := Ideal) S_ .f32 0x3F800000#32))
      (Host.dotGeneral (F := Ideal) dot_S16x4096_S4096x16_S4096x4096_0_1_1_0_n_n none A B))) bitsLt_bf16_f32

/-! The product of the two factors contracts the left factor's first axis with the right factor's second: the four
    operand coordinates at a result index and a contraction position. -/
private theorem lr_lhs_0 (i : S4096x4096.Idx) (q : dot_S16x4096_S4096x16_S4096x4096_0_1_1_0_n_n.contr.Idx) :
    (dot_S16x4096_S4096x16_S4096x4096_0_1_1_0_n_n.lhsIdx i q 0).val = (q ⟨0, by decide⟩).val :=
  dot_S16x4096_S4096x16_S4096x4096_0_1_1_0_n_n.lhsIdx_val_of_single rfl i q
private theorem lr_lhs_1 (i : S4096x4096.Idx) (q : dot_S16x4096_S4096x16_S4096x4096_0_1_1_0_n_n.contr.Idx) :
    (dot_S16x4096_S4096x16_S4096x4096_0_1_1_0_n_n.lhsIdx i q 1).val = (i 0).val := by
  unfold DotDims.lhsIdx
  rw [dif_neg (show ¬(1 : Fin S16x4096.rank) ∈ dot_S16x4096_S4096x16_S4096x4096_0_1_1_0_n_n.lhsBatch by decide), dif_pos (show (1 : Fin S16x4096.rank) ∈ dot_S16x4096_S4096x16_S4096x4096_0_1_1_0_n_n.lhsNonContracting by decide)]
  rfl
private theorem lr_rhs_0 (i : S4096x4096.Idx) (q : dot_S16x4096_S4096x16_S4096x4096_0_1_1_0_n_n.contr.Idx) :
    (dot_S16x4096_S4096x16_S4096x4096_0_1_1_0_n_n.rhsIdx i q 0).val = (i 1).val := by
  unfold DotDims.rhsIdx
  rw [dif_neg (show ¬(0 : Fin S4096x16.rank) ∈ dot_S16x4096_S4096x16_S4096x4096_0_1_1_0_n_n.rhsBatch by decide), dif_pos (show (0 : Fin S4096x16.rank) ∈ dot_S16x4096_S4096x16_S4096x4096_0_1_1_0_n_n.rhsNonContracting by decide)]
  rfl
private theorem lr_rhs_1 (i : S4096x4096.Idx) (q : dot_S16x4096_S4096x16_S4096x4096_0_1_1_0_n_n.contr.Idx) :
    (dot_S16x4096_S4096x16_S4096x4096_0_1_1_0_n_n.rhsIdx i q 1).val = (q ⟨0, by decide⟩).val :=
  dot_S16x4096_S4096x16_S4096x4096_0_1_1_0_n_n.rhsIdx_val_of_single rfl i q

/-- The factors' product at (d, h): the sum over the rank r of A (r, d) times B (h, r). -/
private theorem lowrank_apply (A : FVec Ideal S16x4096 .f32) (B : FVec Ideal S4096x16 .f32) (d h : Fin 4096) :
    Host.dotGeneral (F := Ideal) dot_S16x4096_S4096x16_S4096x4096_0_1_1_0_n_n none A B (ix2 d h) = ∑ r : Fin 16, A (ix2 r d) * B (ix2 h r) := by
  simp only [Host.dotGeneral]
  rw [Ideal.dotGeneral_apply, ← Equiv.sum_comp (contrEquiv1 dot_S16x4096_S4096x16_S4096x4096_0_1_1_0_n_n 16 rfl rfl).symm]
  refine Finset.sum_congr rfl fun k _ => ?_
  have hk := contrEquiv1_symm_val dot_S16x4096_S4096x16_S4096x4096_0_1_1_0_n_n 16 rfl rfl k
  have el : dot_S16x4096_S4096x16_S4096x4096_0_1_1_0_n_n.lhsIdx (ix2 d h) ((contrEquiv1 dot_S16x4096_S4096x16_S4096x4096_0_1_1_0_n_n 16 rfl rfl).symm k) = ix2 k d := funext fun a => Fin.ext (by
    match a with
    | ⟨0, _⟩ => exact (lr_lhs_0 _ _).trans hk
    | ⟨1, _⟩ => exact lr_lhs_1 _ _)
  have er : dot_S16x4096_S4096x16_S4096x4096_0_1_1_0_n_n.rhsIdx (ix2 d h) ((contrEquiv1 dot_S16x4096_S4096x16_S4096x4096_0_1_1_0_n_n 16 rfl rfl).symm k) = ix2 h k := funext fun a => Fin.ext (by
    match a with
    | ⟨0, _⟩ => exact lr_rhs_0 _ _
    | ⟨1, _⟩ => exact (lr_rhs_1 _ _).trans hk)
  rw [el, er]

/-- A block at (d, h): W (h, d) plus one times the factors' product there. -/
private theorem piece_apply (W : FVec Ideal S4096x4096 .f32) (A : FVec Ideal S16x4096 .f32) (B : FVec Ideal S4096x16 .f32)
    (d h : Fin 4096) :
    piece W A B (ix2 d h) = W (ix2 h d) + Cert.Spec.one * ∑ r : Fin 16, A (ix2 r d) * B (ix2 h r) := by
  unfold piece
  have hone : broadcastInDim S4096x4096 ![] bcast_S_S4096x4096 (constant (F := Ideal) S_ .f32 0x3F800000#32) (ix2 d h)
      = Cert.Spec.one :=
    (broadcastInDim_apply _ bcast_S_S4096x4096 _ (ix2 d h) (fun a => a.elim0) (fun a => a.elim0)).trans rfl
  rw [truncf_apply, addf_apply, mulf_apply, lowrank_apply,
    transpose_apply [1, 0] W transposes_S4096x4096_S4096x4096_1_0 (ix2 d h) (ix2 h d)
      (fun b => by match b with | ⟨0, _⟩ => rfl | ⟨1, _⟩ => rfl), hone]

/-- Row (b, s) of the left operand is position s of batch b of the input. -/
theorem xarr_apply (c : Dev nD) (b : Fin 4) (s : Fin 2048) (d : Fin 4096) :
    xarr m c (ix2 (rowOf b s) d) = arg0 m c (ix3 b s d) := by
  show StableHlo.after hostOps0 (fun b => m (c, b)) (Proc.devRef .tc main_v20) (ix2 (rowOf b s) d) = _
  host_results
  show shapeCast S8192x4096 (arg0 m c) shapeCasts_S4x2048x4096_S8192x4096 (ix2 (rowOf b s) d) = arg0 m c (ix3 b s d)
  refine shapeCast_apply _ _ _ _ ?_
  rw [Shape.rowMajor_val_two, Shape.rowMajor_val_three]
  rfl

/-- The right operand is the three projections' blocks side by side. -/
private theorem warr_eq (c : Dev nD) : (warr m c : S4096x12288.Idx → EReal) =
    concatenate S4096x12288 1 [⟨S4096x4096, piece (arg1 m c) (arg4 m c) (arg5 m c)⟩,
      ⟨S4096x4096, piece (arg2 m c) (arg6 m c) (arg7 m c)⟩, ⟨S4096x4096, piece (arg3 m c) (arg8 m c) (arg9 m c)⟩]
      concatenates_S4096x4096_S4096x4096_S4096x4096_S4096x12288_d1 := by
  show StableHlo.after hostOps0 (fun b => m (c, b)) (Proc.devRef .tc main_v18) = _
  host_results
  rfl

/-- The first projection's columns of the right operand: its weight transposed plus one times its factors' product. -/
theorem warr_apply_q (c : Dev nD) (d : Fin 4096) (h : Fin 4096) :
    warr m c (ix2 d (colQ h)) = arg1 m c (ix2 h d) + Cert.Spec.one * ∑ r : Fin 16, arg4 m c (ix2 r d) * arg5 m c (ix2 h r) := by
  rw [warr_eq]
  refine (concatenate_apply_piece (α := EReal) (t := S4096x12288) 1
    [⟨S4096x4096, piece (arg1 m c) (arg4 m c) (arg5 m c)⟩,
      ⟨S4096x4096, piece (arg2 m c) (arg6 m c) (arg7 m c)⟩, ⟨S4096x4096, piece (arg3 m c) (arg8 m c) (arg9 m c)⟩]
    concatenates_S4096x4096_S4096x4096_S4096x4096_S4096x12288_d1 (ix2 d (colQ h)) 0 (by simp) S4096x4096
    (piece (arg1 m c) (arg4 m c) (arg5 m c)) rfl rfl 0 rfl (ix2 d h)
    (fun b hb => by match b with | ⟨0, _⟩ => rfl | ⟨1, _⟩ => exact absurd rfl hb) (Nat.zero_add _)).trans ?_
  exact piece_apply _ _ _ d h

/-- The second projection's columns. -/
theorem warr_apply_k (c : Dev nD) (d : Fin 4096) (h : Fin 4096) :
    warr m c (ix2 d (colK h)) = arg2 m c (ix2 h d) + Cert.Spec.one * ∑ r : Fin 16, arg6 m c (ix2 r d) * arg7 m c (ix2 h r) := by
  rw [warr_eq]
  refine (concatenate_apply_piece (α := EReal) (t := S4096x12288) 1
    [⟨S4096x4096, piece (arg1 m c) (arg4 m c) (arg5 m c)⟩,
      ⟨S4096x4096, piece (arg2 m c) (arg6 m c) (arg7 m c)⟩, ⟨S4096x4096, piece (arg3 m c) (arg8 m c) (arg9 m c)⟩]
    concatenates_S4096x4096_S4096x4096_S4096x4096_S4096x12288_d1 (ix2 d (colK h)) 1 (by simp) S4096x4096
    (piece (arg2 m c) (arg6 m c) (arg7 m c)) rfl rfl 4096 rfl (ix2 d h)
    (fun b hb => by match b with | ⟨0, _⟩ => rfl | ⟨1, _⟩ => exact absurd rfl hb) rfl).trans ?_
  exact piece_apply _ _ _ d h

/-- The third projection's columns. -/
theorem warr_apply_v (c : Dev nD) (d : Fin 4096) (h : Fin 4096) :
    warr m c (ix2 d (colV h)) = arg3 m c (ix2 h d) + Cert.Spec.one * ∑ r : Fin 16, arg8 m c (ix2 r d) * arg9 m c (ix2 h r) := by
  rw [warr_eq]
  refine (concatenate_apply_piece (α := EReal) (t := S4096x12288) 1
    [⟨S4096x4096, piece (arg1 m c) (arg4 m c) (arg5 m c)⟩,
      ⟨S4096x4096, piece (arg2 m c) (arg6 m c) (arg7 m c)⟩, ⟨S4096x4096, piece (arg3 m c) (arg8 m c) (arg9 m c)⟩]
    concatenates_S4096x4096_S4096x4096_S4096x4096_S4096x12288_d1 (ix2 d (colV h)) 2 (by simp) S4096x4096
    (piece (arg3 m c) (arg8 m c) (arg9 m c)) rfl rfl 8192 rfl (ix2 d h)
    (fun b hb => by match b with | ⟨0, _⟩ => rfl | ⟨1, _⟩ => exact absurd rfl hb) rfl).trans ?_
  exact piece_apply _ _ _ d h

/-- The first result: the first projection's columns of the call's output array, rows unflattened. -/
theorem tail_q (c : Dev nD) (arr : Vec Ideal S8192x12288 .f32) (harr : (dats m 0 c).arrAt 2 cfg0.N = arr) :
    Pipeline.afterTail₀ cfgs (dats m) 0 (V0 m) [hostOps1] c main_v23
      = (fun i => arr (ix2 (rowOf (i 0) (i 1)) (colQ (i 2))) : Vec Ideal S4x2048x4096 .f32) := by
  unfold Pipeline.afterTail₀
  show StableHlo.after hostOps1 _ (Proc.devRef .tc main_v23) = _
  host_results
  have hw : Pipeline.withArrays (cfgs 0).spec c (V0 m c) (fun w => (dats m 0 c).arrAt w (cfgs 0).N) (Proc.devRef .tc main_v21) = arr :=
    (Pipeline.withArrays_arr spec0 launch0.win.arr_inj c _ _ 2).trans harr
  rw [hw]
  funext i
  show shapeCast S4x2048x4096 (extractStridedSlice S8192x4096 ![0, 0] arr slices_S8192x12288_S8192x4096_0_0) shapeCasts_S8192x4096_S4x2048x4096 i = _
  rw [shapeCast_apply _ shapeCasts_S8192x4096_S4x2048x4096 i (ix2 (rowOf (i 0) (i 1)) (i 2)) (by
    rw [Shape.rowMajor_val_two, Shape.rowMajor_val_three]; rfl)]
  exact extractStridedSlice_apply ![0, 0] arr slices_S8192x12288_S8192x4096_0_0 (ix2 (rowOf (i 0) (i 1)) (i 2)) (ix2 (rowOf (i 0) (i 1)) (colQ (i 2)))
    (fun a => by match a with | ⟨0, _⟩ => exact (Nat.zero_add _).symm | ⟨1, _⟩ => exact (Nat.zero_add _).symm)

/-- The second result. -/
theorem tail_k (c : Dev nD) (arr : Vec Ideal S8192x12288 .f32) (harr : (dats m 0 c).arrAt 2 cfg0.N = arr) :
    Pipeline.afterTail₀ cfgs (dats m) 0 (V0 m) [hostOps1] c main_v25
      = (fun i => arr (ix2 (rowOf (i 0) (i 1)) (colK (i 2))) : Vec Ideal S4x2048x4096 .f32) := by
  unfold Pipeline.afterTail₀
  show StableHlo.after hostOps1 _ (Proc.devRef .tc main_v25) = _
  host_results
  have hw : Pipeline.withArrays (cfgs 0).spec c (V0 m c) (fun w => (dats m 0 c).arrAt w (cfgs 0).N) (Proc.devRef .tc main_v21) = arr :=
    (Pipeline.withArrays_arr spec0 launch0.win.arr_inj c _ _ 2).trans harr
  rw [hw]
  funext i
  show shapeCast S4x2048x4096 (extractStridedSlice S8192x4096 ![0, 4096] arr slices_S8192x12288_S8192x4096_0_4096) shapeCasts_S8192x4096_S4x2048x4096 i = _
  rw [shapeCast_apply _ shapeCasts_S8192x4096_S4x2048x4096 i (ix2 (rowOf (i 0) (i 1)) (i 2)) (by
    rw [Shape.rowMajor_val_two, Shape.rowMajor_val_three]; rfl)]
  exact extractStridedSlice_apply ![0, 4096] arr slices_S8192x12288_S8192x4096_0_4096 (ix2 (rowOf (i 0) (i 1)) (i 2)) (ix2 (rowOf (i 0) (i 1)) (colK (i 2)))
    (fun a => by match a with | ⟨0, _⟩ => exact (Nat.zero_add _).symm | ⟨1, _⟩ => exact rfl)

/-- The third result. -/
theorem tail_v (c : Dev nD) (arr : Vec Ideal S8192x12288 .f32) (harr : (dats m 0 c).arrAt 2 cfg0.N = arr) :
    Pipeline.afterTail₀ cfgs (dats m) 0 (V0 m) [hostOps1] c main_v27
      = (fun i => arr (ix2 (rowOf (i 0) (i 1)) (colV (i 2))) : Vec Ideal S4x2048x4096 .f32) := by
  unfold Pipeline.afterTail₀
  show StableHlo.after hostOps1 _ (Proc.devRef .tc main_v27) = _
  host_results
  have hw : Pipeline.withArrays (cfgs 0).spec c (V0 m c) (fun w => (dats m 0 c).arrAt w (cfgs 0).N) (Proc.devRef .tc main_v21) = arr :=
    (Pipeline.withArrays_arr spec0 launch0.win.arr_inj c _ _ 2).trans harr
  rw [hw]
  funext i
  show shapeCast S4x2048x4096 (extractStridedSlice S8192x4096 ![0, 8192] arr slices_S8192x12288_S8192x4096_0_8192) shapeCasts_S8192x4096_S4x2048x4096 i = _
  rw [shapeCast_apply _ shapeCasts_S8192x4096_S4x2048x4096 i (ix2 (rowOf (i 0) (i 1)) (i 2)) (by
    rw [Shape.rowMajor_val_two, Shape.rowMajor_val_three]; rfl)]
  exact extractStridedSlice_apply ![0, 8192] arr slices_S8192x12288_S8192x4096_0_8192 (ix2 (rowOf (i 0) (i 1)) (i 2)) (ix2 (rowOf (i 0) (i 1)) (colV (i 2)))
    (fun a => by match a with | ⟨0, _⟩ => exact (Nat.zero_add _).symm | ⟨1, _⟩ => exact rfl)

end Cert.KernelIdeal.Frm

end
-- ==== Proof.KI.Run.lean ====
/-
  The idealized kernel program's value: it runs to the end with its three results at the folded-weight form
  of the projection (input times (weight transposed plus one times the low-rank product)), index by index, and
  its ten arguments as launched.
-/
import proofs.«130216_j26250840113720_1_alg».proof.Proof.KI.Value
import proofs.«130216_j26250840113720_1_alg».proof.Proof.KI.HostVals

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (m : (ℓ : Loc nD τ sig) → Buf (Elt Ideal) ℓ) (ρ : Dev nD → PrngReg)

open Cert.Spec in
/-- One entry of the first result: the product's entry at row (b, s) and that projection's column h, with the two
    operands read back through the host lines before the call. -/
theorem entry_q (c : Dev nD) (b : Fin 4) (s : Fin 2048) (h : Fin 4096) :
    prodAt m c (rowOf b s) (colQ h) = fusedAt (arg0 m c) (arg1 m c) (arg4 m c) (arg5 m c) b s h := by
  unfold prodAt fusedAt
  refine Finset.sum_congr rfl fun d _ => ?_
  rw [xarr_apply, warr_apply_q]

open Cert.Spec in
theorem res_q (c : Dev nD) :
    Pipeline.afterTail₀ cfgs (dats m) 0 (V0 m) [hostOps1] c main_v23 = fused (arg0 m c) (arg1 m c) (arg4 m c) (arg5 m c) := by
  rw [tail_q m c (prod m c) (final m c)]
  refine funext fun (i : S4x2048x4096.Idx) => ?_
  exact entry_q m c (i 0) (i 1) (i 2)

open Cert.Spec in
/-- One entry of the second result: the product's entry at row (b, s) and that projection's column h, with the two
    operands read back through the host lines before the call. -/
theorem entry_k (c : Dev nD) (b : Fin 4) (s : Fin 2048) (h : Fin 4096) :
    prodAt m c (rowOf b s) (colK h) = fusedAt (arg0 m c) (arg2 m c) (arg6 m c) (arg7 m c) b s h := by
  unfold prodAt fusedAt
  refine Finset.sum_congr rfl fun d _ => ?_
  rw [xarr_apply, warr_apply_k]

open Cert.Spec in
theorem res_k (c : Dev nD) :
    Pipeline.afterTail₀ cfgs (dats m) 0 (V0 m) [hostOps1] c main_v25 = fused (arg0 m c) (arg2 m c) (arg6 m c) (arg7 m c) := by
  rw [tail_k m c (prod m c) (final m c)]
  refine funext fun (i : S4x2048x4096.Idx) => ?_
  exact entry_k m c (i 0) (i 1) (i 2)

open Cert.Spec in
/-- One entry of the third result: the product's entry at row (b, s) and that projection's column h, with the two
    operands read back through the host lines before the call. -/
theorem entry_v (c : Dev nD) (b : Fin 4) (s : Fin 2048) (h : Fin 4096) :
    prodAt m c (rowOf b s) (colV h) = fusedAt (arg0 m c) (arg3 m c) (arg8 m c) (arg9 m c) b s h := by
  unfold prodAt fusedAt
  refine Finset.sum_congr rfl fun d _ => ?_
  rw [xarr_apply, warr_apply_v]

open Cert.Spec in
theorem res_v (c : Dev nD) :
    Pipeline.afterTail₀ cfgs (dats m) 0 (V0 m) [hostOps1] c main_v27 = fused (arg0 m c) (arg3 m c) (arg8 m c) (arg9 m c) := by
  rw [tail_v m c (prod m c) (final m c)]
  refine funext fun (i : S4x2048x4096.Idx) => ?_
  exact entry_v m c (i 0) (i 1) (i 2)

open Cert.Spec in
/-- The run with its results named. A result buffer is no array of the call, so it ends as the host lines after
    the call leave it. -/
theorem value_run : θ_run defs (onTc (τ := τ) (main (F := Ideal))) ⟨m, fun _ => 0, ρ⟩ (fun r => ∀ c : Dev nD,
      r.2.mem ((c.tc : Thread nD τ).loc main_v23) = fused (arg0 m c) (arg1 m c) (arg4 m c) (arg5 m c)
      ∧ r.2.mem ((c.tc : Thread nD τ).loc main_v25) = fused (arg0 m c) (arg2 m c) (arg6 m c) (arg7 m c)
      ∧ r.2.mem ((c.tc : Thread nD τ).loc main_v27) = fused (arg0 m c) (arg3 m c) (arg8 m c) (arg9 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_v23 (Pipeline.mem_restRefs_of main_v23 (by decide) (by decide))).trans (res_q m c),
      ((h c).2 main_v25 (Pipeline.mem_restRefs_of main_v25 (by decide) (by decide))).trans (res_k m c),
      ((h c).2 main_v27 (Pipeline.mem_restRefs_of main_v27 (by decide) (by decide))).trans (res_v m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩) (run_main m ρ)

end Cert.KernelIdeal.Frm

end
-- ==== Proof.RefValue.lean ====
/-
  The reference's three results, read index by index: each is the two-path form of Spec.
-/
import proofs.«130216_j26250840113720_1_alg».proof.Proof.Gen.ReferenceIdeal.Read
import proofs.«130216_j26250840113720_1_alg».proof.Proof.Spec

noncomputable section

namespace Cert.RefValue

open Idealize.ShloMosaic Idealize.ShloMosaic.TcCoe Idealize.SL.Sem Idealize.ShloMosaic.ValueIdx
open Cert.ReferenceIdeal Cert.ReferenceIdeal.Gen Cert.ReferenceIdeal.Read Cert.Spec

/-! First result: stages v0 to v5 on W = x1, A = x4, B = x5. -/

/-- The full-rank product reads x at (b, s, d) ... -/
private theorem l0 (i : S4x2048x4096.Idx) (d : Fin 4096) :
    lidx_main_v0 i d = ix3 (n0 := 4) (n1 := 2048) (n2 := 4096) (i 0) (i 1) d :=
  funext fun a => Fin.ext (by match a with | ⟨0, _⟩ => rfl | ⟨1, _⟩ => rfl | ⟨2, _⟩ => rfl)
/-- ... and W at (h, d). -/
private theorem r0 (i : S4x2048x4096.Idx) (d : Fin 4096) :
    ridx_main_v0 i d = ix2 (n0 := 4096) (n1 := 4096) (i 2) d :=
  funext fun a => Fin.ext (by match a with | ⟨0, _⟩ => rfl | ⟨1, _⟩ => rfl)
/-- The outer low-rank product reads the inner one at (b, s, r), and the inner one there reads x at (b, s, d) ... -/
private theorem l1 (i : S4x2048x4096.Idx) (r : Fin 16) (d : Fin 4096) :
    lidx_main_v1 (lidx_main_v4 i r) d = ix3 (n0 := 4) (n1 := 2048) (n2 := 4096) (i 0) (i 1) d :=
  funext fun a => Fin.ext (by match a with | ⟨0, _⟩ => rfl | ⟨1, _⟩ => rfl | ⟨2, _⟩ => rfl)
/-- ... and A at (r, d). -/
private theorem r1 (i : S4x2048x4096.Idx) (r : Fin 16) (d : Fin 4096) :
    ridx_main_v1 (lidx_main_v4 i r) d = ix2 (n0 := 16) (n1 := 4096) r d :=
  funext fun a => Fin.ext (by match a with | ⟨0, _⟩ => rfl | ⟨1, _⟩ => rfl)
/-- The outer low-rank product reads the scaled B at (h, r). -/
private theorem r4 (i : S4x2048x4096.Idx) (r : Fin 16) :
    ridx_main_v4 i r = ix2 (n0 := 4096) (n1 := 16) (i 2) r :=
  funext fun a => Fin.ext (by match a with | ⟨0, _⟩ => rfl | ⟨1, _⟩ => rfl)

theorem v5_eq (x0 : (⟨S4x2048x4096, .f32⟩ : BufTy).Contents (Elt Ideal)) (x1 : (⟨S4096x4096, .f32⟩ : BufTy).Contents (Elt Ideal))
    (x4 : (⟨S16x4096, .f32⟩ : BufTy).Contents (Elt Ideal)) (x5 : (⟨S4096x16, .f32⟩ : BufTy).Contents (Elt Ideal)) :
    val_main_v5 (F := Ideal) x0 x1 x4 x5 = split x0 x1 x4 x5 := by
  funext i
  rw [val_main_v5_apply, val_main_v4_apply, val_main_v0_apply]
  simp only [val_main_v1_apply, val_main_v3_apply, val_main_v2_apply, val_main_cst_apply,
    l0, r0, l1, r1, r4, Spec.split, Spec.splitAt, Spec.one,
    Ideal.addf_def, Ideal.mulf_def, Ideal.ofBits_def]

/-! Second result: the same computation, stages v6 to v11 on W = x2, A = x6, B = x7. -/

/-- The full-rank product reads x at (b, s, d) ... -/
private theorem l6 (i : S4x2048x4096.Idx) (d : Fin 4096) :
    lidx_main_v6 i d = ix3 (n0 := 4) (n1 := 2048) (n2 := 4096) (i 0) (i 1) d :=
  funext fun a => Fin.ext (by match a with | ⟨0, _⟩ => rfl | ⟨1, _⟩ => rfl | ⟨2, _⟩ => rfl)
/-- ... and W at (h, d). -/
private theorem r6 (i : S4x2048x4096.Idx) (d : Fin 4096) :
    ridx_main_v6 i d = ix2 (n0 := 4096) (n1 := 4096) (i 2) d :=
  funext fun a => Fin.ext (by match a with | ⟨0, _⟩ => rfl | ⟨1, _⟩ => rfl)
/-- The outer low-rank product reads the inner one at (b, s, r), and the inner one there reads x at (b, s, d) ... -/
private theorem l7 (i : S4x2048x4096.Idx) (r : Fin 16) (d : Fin 4096) :
    lidx_main_v7 (lidx_main_v10 i r) d = ix3 (n0 := 4) (n1 := 2048) (n2 := 4096) (i 0) (i 1) d :=
  funext fun a => Fin.ext (by match a with | ⟨0, _⟩ => rfl | ⟨1, _⟩ => rfl | ⟨2, _⟩ => rfl)
/-- ... and A at (r, d). -/
private theorem r7 (i : S4x2048x4096.Idx) (r : Fin 16) (d : Fin 4096) :
    ridx_main_v7 (lidx_main_v10 i r) d = ix2 (n0 := 16) (n1 := 4096) r d :=
  funext fun a => Fin.ext (by match a with | ⟨0, _⟩ => rfl | ⟨1, _⟩ => rfl)
/-- The outer low-rank product reads the scaled B at (h, r). -/
private theorem r10 (i : S4x2048x4096.Idx) (r : Fin 16) :
    ridx_main_v10 i r = ix2 (n0 := 4096) (n1 := 16) (i 2) r :=
  funext fun a => Fin.ext (by match a with | ⟨0, _⟩ => rfl | ⟨1, _⟩ => rfl)

theorem v11_eq (x0 : (⟨S4x2048x4096, .f32⟩ : BufTy).Contents (Elt Ideal)) (x2 : (⟨S4096x4096, .f32⟩ : BufTy).Contents (Elt Ideal))
    (x6 : (⟨S16x4096, .f32⟩ : BufTy).Contents (Elt Ideal)) (x7 : (⟨S4096x16, .f32⟩ : BufTy).Contents (Elt Ideal)) :
    val_main_v11 (F := Ideal) x0 x2 x6 x7 = split x0 x2 x6 x7 := by
  funext i
  rw [val_main_v11_apply, val_main_v10_apply, val_main_v6_apply]
  simp only [val_main_v7_apply, val_main_v9_apply, val_main_v8_apply, val_main_cst_0_apply,
    l6, r6, l7, r7, r10, Spec.split, Spec.splitAt, Spec.one,
    Ideal.addf_def, Ideal.mulf_def, Ideal.ofBits_def]

/-! Third result: the same computation, stages v12 to v17 on W = x3, A = x8, B = x9. -/

/-- The full-rank product reads x at (b, s, d) ... -/
private theorem l12 (i : S4x2048x4096.Idx) (d : Fin 4096) :
    lidx_main_v12 i d = ix3 (n0 := 4) (n1 := 2048) (n2 := 4096) (i 0) (i 1) d :=
  funext fun a => Fin.ext (by match a with | ⟨0, _⟩ => rfl | ⟨1, _⟩ => rfl | ⟨2, _⟩ => rfl)
/-- ... and W at (h, d). -/
private theorem r12 (i : S4x2048x4096.Idx) (d : Fin 4096) :
    ridx_main_v12 i d = ix2 (n0 := 4096) (n1 := 4096) (i 2) d :=
  funext fun a => Fin.ext (by match a with | ⟨0, _⟩ => rfl | ⟨1, _⟩ => rfl)
/-- The outer low-rank product reads the inner one at (b, s, r), and the inner one there reads x at (b, s, d) ... -/
private theorem l13 (i : S4x2048x4096.Idx) (r : Fin 16) (d : Fin 4096) :
    lidx_main_v13 (lidx_main_v16 i r) d = ix3 (n0 := 4) (n1 := 2048) (n2 := 4096) (i 0) (i 1) d :=
  funext fun a => Fin.ext (by match a with | ⟨0, _⟩ => rfl | ⟨1, _⟩ => rfl | ⟨2, _⟩ => rfl)
/-- ... and A at (r, d). -/
private theorem r13 (i : S4x2048x4096.Idx) (r : Fin 16) (d : Fin 4096) :
    ridx_main_v13 (lidx_main_v16 i r) d = ix2 (n0 := 16) (n1 := 4096) r d :=
  funext fun a => Fin.ext (by match a with | ⟨0, _⟩ => rfl | ⟨1, _⟩ => rfl)
/-- The outer low-rank product reads the scaled B at (h, r). -/
private theorem r16 (i : S4x2048x4096.Idx) (r : Fin 16) :
    ridx_main_v16 i r = ix2 (n0 := 4096) (n1 := 16) (i 2) r :=
  funext fun a => Fin.ext (by match a with | ⟨0, _⟩ => rfl | ⟨1, _⟩ => rfl)

theorem v17_eq (x0 : (⟨S4x2048x4096, .f32⟩ : BufTy).Contents (Elt Ideal)) (x3 : (⟨S4096x4096, .f32⟩ : BufTy).Contents (Elt Ideal))
    (x8 : (⟨S16x4096, .f32⟩ : BufTy).Contents (Elt Ideal)) (x9 : (⟨S4096x16, .f32⟩ : BufTy).Contents (Elt Ideal)) :
    val_main_v17 (F := Ideal) x0 x3 x8 x9 = split x0 x3 x8 x9 := by
  funext i
  rw [val_main_v17_apply, val_main_v16_apply, val_main_v12_apply]
  simp only [val_main_v13_apply, val_main_v15_apply, val_main_v14_apply, val_main_cst_1_apply,
    l12, r12, l13, r13, r16, Spec.split, Spec.splitAt, Spec.one,
    Ideal.addf_def, Ideal.mulf_def, Ideal.ofBits_def]

end Cert.RefValue

end
-- ==== Proof.Finite.lean ====
/-
  From the precondition (every float input finite) to: every entry of every argument array is a real number.
-/
import proofs.«130216_j26250840113720_1_alg».proof.Defs
import proofs.«130216_j26250840113720_1_alg».proof.Proof.Spec
import Idealize.ShloMosaic.Lib.ReduceAll

noncomputable section

namespace Cert.FiniteArgs

open Idealize.ShloMosaic Idealize.ShloMosaic.TcCoe Idealize.SL.Sem Cert.Spec

variable [hPre : Cert.Pre_finite_inputs.Facts] [hK : Cert.KernelIdeal.Facts]

/-- The scalar shape has a single index. -/
private instance subsingleton_scalar_idx : Subsingleton Cert.Pre_finite_inputs.S_.Idx :=
  ⟨fun a b => funext fun d => d.elim0⟩

/-- The word `0x7F800000` denotes `+∞`. -/
private theorem ofBits_inf : Ideal.ofBits .f32 0x7F800000#32 = ⊤ := by
  simp [Ideal.ofBits, Ideal.ieee]

/-- One value: `max x (-x) < ⊤` on the extended reals says `x` is neither infinity. -/
private theorem ne_top_bot_of_abs_lt_top {x : EReal} (h : max x (-x) < ⊤) : x ≠ ⊤ ∧ x ≠ ⊥ := by
  rw [max_lt_iff] at h
  refine ⟨ne_of_lt h.1, ?_⟩
  rintro rfl
  exact absurd h.2 (by simp)

/-- One conjunct of the precondition, at any shape: if the conjunction over all indices of
    `|x i| < +∞` came out 1, every entry of `x` is a real number. -/
private theorem finite_of_all {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (j : Cert.Pre_finite_inputs.S_.Idx)
    (e : Host.reduce IntOp.andi
          (cmpf .olt (Host.absf x)
            (broadcastInDim S ![] hb (constant (F := Ideal) Cert.Pre_finite_inputs.S_ .f32 0x7F800000#32)))
          (constantI Cert.Pre_finite_inputs.S_ 1 1#1) hr hu j = 1#1) :
    Finite x := by
  intro i
  have hi := Host.reduce_andi_all _ _ hr hu j e i
  have hi' : Ideal.cmp .olt (max (x i) (-(x i))) (Ideal.ofBits .f32 0x7F800000#32) = 1#1 := hi
  rw [ofBits_inf] at hi'
  unfold Ideal.cmp at hi'
  apply ne_top_bot_of_abs_lt_top
  by_contra hn
  simp [hn] at hi'

/-- Under the precondition each of the ten argument arrays holds reals only. -/
theorem of_pre (m : (ℓ : Loc Cert.KernelIdeal.nD Cert.KernelIdeal.τ Cert.KernelIdeal.sig) → Buf (Elt Ideal) ℓ)
    (h : Cert.Pre_KernelIdeal m) (c : Dev Cert.KernelIdeal.nD) :
    Finite (m ((c.tc : Thread Cert.KernelIdeal.nD Cert.KernelIdeal.τ).loc Cert.KernelIdeal.main_arg0))
    ∧ Finite (m ((c.tc : Thread Cert.KernelIdeal.nD Cert.KernelIdeal.τ).loc Cert.KernelIdeal.main_arg1))
    ∧ Finite (m ((c.tc : Thread Cert.KernelIdeal.nD Cert.KernelIdeal.τ).loc Cert.KernelIdeal.main_arg2))
    ∧ Finite (m ((c.tc : Thread Cert.KernelIdeal.nD Cert.KernelIdeal.τ).loc Cert.KernelIdeal.main_arg3))
    ∧ Finite (m ((c.tc : Thread Cert.KernelIdeal.nD Cert.KernelIdeal.τ).loc Cert.KernelIdeal.main_arg4))
    ∧ Finite (m ((c.tc : Thread Cert.KernelIdeal.nD Cert.KernelIdeal.τ).loc Cert.KernelIdeal.main_arg5))
    ∧ Finite (m ((c.tc : Thread Cert.KernelIdeal.nD Cert.KernelIdeal.τ).loc Cert.KernelIdeal.main_arg6))
    ∧ Finite (m ((c.tc : Thread Cert.KernelIdeal.nD Cert.KernelIdeal.τ).loc Cert.KernelIdeal.main_arg7))
    ∧ Finite (m ((c.tc : Thread Cert.KernelIdeal.nD Cert.KernelIdeal.τ).loc Cert.KernelIdeal.main_arg8))
    ∧ Finite (m ((c.tc : Thread Cert.KernelIdeal.nD Cert.KernelIdeal.τ).loc Cert.KernelIdeal.main_arg9)) := by
  have h0 := congrFun (h c) ValueIdx.ix0
  dsimp only [Cert.Pre_finite_inputs.fn, Cert.Pre_finite_inputs.fn_part1, Cert.Pre_finite_inputs.fn_part2] at h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨finite_of_all _ _ _ _ _ e0, finite_of_all _ _ _ _ _ e1, finite_of_all _ _ _ _ _ e2,
    finite_of_all _ _ _ _ _ e3, finite_of_all _ _ _ _ _ e4, finite_of_all _ _ _ _ _ e5,
    finite_of_all _ _ _ _ _ e6, finite_of_all _ _ _ _ _ e7, finite_of_all _ _ _ _ _ e8,
    finite_of_all _ _ _ _ _ e9⟩

end Cert.FiniteArgs

end
-- ==== Proof.lean ====
/-
  The certificate. The kernel folds each projection's weight and low-rank pair into one matrix on the host,
  stacks the three side by side and multiplies the flattened input by the stack in one tiled matrix product,
  accumulated over four steps of the contraction axis; the reference adds, per projection, the plain product
  and the two-step low-rank product. Over the reals the two agree by distributivity and reassociation of finite
  sums, which is why the precondition (every input finite) is used: on the extended reals distributivity fails
  at infinities. The two word-level and idealized kernel programs run to the end leaving their arguments as
  launched (the launch of the tiled product, with its accumulator carried from step to step); the reference is
  host operations only. No rewrite was applied by the idealization, so there is nothing to preserve.
-/
import proofs.«130216_j26250840113720_1_alg».proof.Defs
import proofs.«130216_j26250840113720_1_alg».proof.Proof.Gen.Kernel
import proofs.«130216_j26250840113720_1_alg».proof.Proof.Gen.KernelIdeal
import proofs.«130216_j26250840113720_1_alg».proof.Proof.Gen.ReferenceIdeal
import proofs.«130216_j26250840113720_1_alg».proof.Proof.Gen.Pre_finite_inputs
import proofs.«130216_j26250840113720_1_alg».proof.Proof.Gen.ReferenceIdeal.Run
import proofs.«130216_j26250840113720_1_alg».proof.Proof.Gen.ReferenceIdeal.Read
import proofs.«130216_j26250840113720_1_alg».proof.Proof.KB.Frame
import proofs.«130216_j26250840113720_1_alg».proof.Proof.KI.Run
import proofs.«130216_j26250840113720_1_alg».proof.Proof.RefValue
import proofs.«130216_j26250840113720_1_alg».proof.Proof.Finite
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Frm.frame m ρ

theorem frame_ki : @Cert.frame_KernelIdeal Cert.KernelIdeal.Gen.facts Cert.Pre_finite_inputs.Gen.facts :=
  fun m ρ _ => Cert.KernelIdeal.Frm.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2.2.2) (Cert.ReferenceIdeal.Value.run (F := Ideal) m ρ)

/-- Both idealized programs end with the same three arrays: the kernel's folded-weight form equals the
    reference's two-path form wherever every entry is a real number. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨_, _, _, Cert.KernelIdeal.Frm.value_run m ρ, ?_⟩
  refine (θ_run Cert.ReferenceIdeal.defs _ _).mono (fun _ h c => ?_) (Cert.ReferenceIdeal.Value.run (F := Ideal) m' ρ')
  obtain ⟨f0, f1, f2, f3, f4, f5, f6, f7, f8, f9⟩ := Cert.FiniteArgs.of_pre m hpre c
  obtain ⟨a0, a1, a2, a3, a4, a5, a6, a7, a8, a9⟩ := hagree c
  refine ⟨(h c).1.trans ?_, (h c).2.1.trans ?_, (h c).2.2.1.trans ?_, (h c).2.2.2⟩
  · rw [a0, a1, a4, a5, Cert.ReferenceIdeal.Read.val_main_v5_eq, Cert.RefValue.v5_eq]
    exact (Cert.Spec.fused_eq_split f0 f1 f4 f5).symm
  · rw [a0, a2, a6, a7, Cert.ReferenceIdeal.Read.val_main_v11_eq, Cert.RefValue.v11_eq]
    exact (Cert.Spec.fused_eq_split f0 f2 f6 f7).symm
  · rw [a0, a3, a8, a9, Cert.ReferenceIdeal.Read.val_main_v17_eq, Cert.RefValue.v17_eq]
    exact (Cert.Spec.fused_eq_split f0 f3 f8 f9).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
